-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1024 : Shape := ⟨2, ![10000, 1024]⟩
abbrev S1024x512 : Shape := ⟨2, ![1024, 512]⟩
abbrev S160000 : Shape := ⟨1, ![160000]⟩
abbrev S_ : Shape := ⟨0, ![]⟩

class Facts : Prop where
  bcast_S_S10000x1024 : S_.BroadcastsInDim S10000x1024 (![] : Fin 0 → Fin S10000x1024.rank)
  reducesTo_S10000x1024_S_d0_1 : S10000x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S160000 : S_.BroadcastsInDim S160000 (![] : Fin 0 → Fin S160000.rank)
  reducesTo_S160000_S_d0 : S160000.ReducesTo [0] S_

variable [Facts]

def fn_part1 {F : FTy → Type} [FloatOps F] (main_arg2 : IVec S160000 32) (main_arg3 : IVec S160000 32) (main_v13 : IVec S_ 1) (main_v15 : IVec S160000 1) (main_c_5 : IVec S_ 32) : IVec S_ 1 :=
  let main_v16 : IVec S160000 32 := broadcastInDim S160000 ![] bcast_S_S160000 main_c_5
  let main_v17 : IVec S160000 1 := cmpi .slt main_arg2 main_v16
  let main_v18 : IVec S160000 1 := andi main_v15 main_v17
  let main_c_6 : IVec S_ 1 := constantI S_ 1 1#1
  let main_v19 : IVec S_ 1 := (fun x v => Host.reduce IntOp.andi x v reducesTo_S160000_S_d0 h_S_) main_v18 main_c_6
  let main_v20 : IVec S_ 1 := andi main_v13 main_v19
  let main_c_7 : IVec S_ 32 := constantI S_ 32 0#32
  let main_v21 : IVec S160000 32 := broadcastInDim S160000 ![] bcast_S_S160000 main_c_7
  let main_v22 : IVec S160000 1 := cmpi .sge main_arg3 main_v21
  let main_c_8 : IVec S_ 32 := constantI S_ 32 10000#32
  let main_v23 : IVec S160000 32 := broadcastInDim S160000 ![] bcast_S_S160000 main_c_8
  let main_v24 : IVec S160000 1 := cmpi .slt main_arg3 main_v23
  let main_v25 : IVec S160000 1 := andi main_v22 main_v24
  let main_c_9 : IVec S_ 1 := constantI S_ 1 1#1
  let main_v26 : IVec S_ 1 := (fun x v => Host.reduce IntOp.andi x v reducesTo_S160000_S_d0 h_S_) main_v25 main_c_9
  let main_v27 : IVec S_ 1 := andi main_v20 main_v26
  main_v27

def fn {F : FTy → Type} [FloatOps F] (main_arg0 : FVec F S10000x1024 .f32) (main_arg1 : FVec F S1024x512 .f32) (main_arg2 : IVec S160000 32) (main_arg3 : IVec S160000 32) (main_arg4 : FVec F S160000 .f32) : IVec S_ 1 :=
  let main_v0 : FVec F S10000x1024 .f32 := Host.absf main_arg0
  let main_cst : FVec F S_ .f32 := constant S_ .f32 0x7F800000#32
  let main_v1 : FVec F S10000x1024 .f32 := broadcastInDim S10000x1024 ![] bcast_S_S10000x1024 main_cst
  let main_v2 : IVec S10000x1024 1 := cmpf .olt main_v0 main_v1
  let main_c : IVec S_ 1 := constantI S_ 1 1#1
  let main_v3 : IVec S_ 1 := (fun x v => Host.reduce IntOp.andi x v reducesTo_S10000x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S160000 .f32 := Host.absf main_arg4
  let main_cst_2 : FVec F S_ .f32 := constant S_ .f32 0x7F800000#32
  let main_v10 : FVec F S160000 .f32 := broadcastInDim S160000 ![] bcast_S_S160000 main_cst_2
  let main_v11 : IVec S160000 1 := cmpf .olt main_v9 main_v10
  let main_c_3 : IVec S_ 1 := constantI S_ 1 1#1
  let main_v12 : IVec S_ 1 := (fun x v => Host.reduce IntOp.andi x v reducesTo_S160000_S_d0 h_S_) main_v11 main_c_3
  let main_v13 : IVec S_ 1 := andi main_v8 main_v12
  let main_c_4 : IVec S_ 32 := constantI S_ 32 0#32
  let main_v14 : IVec S160000 32 := broadcastInDim S160000 ![] bcast_S_S160000 main_c_4
  let main_v15 : IVec S160000 1 := cmpi .sge main_arg2 main_v14
  let main_c_5 : IVec S_ 32 := constantI S_ 32 10000#32
  fn_part1 (F := F) main_arg2 main_arg3 main_v13 main_v15 main_c_5
-- ==== Kernel.lean ====
abbrev S10000x1024 : Shape := ⟨2, ![10000, 1024]⟩
abbrev S1024x512 : Shape := ⟨2, ![1024, 512]⟩
abbrev S160000 : Shape := ⟨1, ![160000]⟩
abbrev S_ : Shape := ⟨0, ![]⟩
abbrev S10240x1024 : Shape := ⟨2, ![10240, 1024]⟩
abbrev S10240x512 : Shape := ⟨2, ![10240, 512]⟩
abbrev S1280x1024 : Shape := ⟨2, ![1280, 1024]⟩
abbrev S1280x512 : Shape := ⟨2, ![1280, 512]⟩
abbrev S10240x10240 : Shape := ⟨2, ![10240, 10240]⟩
abbrev S160000x1 : Shape := ⟨2, ![160000, 1]⟩
abbrev S160000x2 : Shape := ⟨2, ![160000, 2]⟩
abbrev S256x10240 : Shape := ⟨2, ![256, 10240]⟩
abbrev S256x512 : Shape := ⟨2, ![256, 512]⟩
abbrev S10000x512 : Shape := ⟨2, ![10000, 512]⟩

abbrev nBuf : Space → Nat
  | .hbm => 48
  | .vmem => 10
  | .smem => 0
  | _ => 0

abbrev bufTy : (tb : Table) → Fin (tcTables nBuf tb) → BufTy
  | .hbm, ⟨0, _⟩ => ⟨S10000x1024, .f32⟩
  | .hbm, ⟨1, _⟩ => ⟨S1024x512, .f32⟩
  | .hbm, ⟨2, _⟩ => ⟨S160000, .i32⟩
  | .hbm, ⟨3, _⟩ => ⟨S160000, .i32⟩
  | .hbm, ⟨4, _⟩ => ⟨S160000, .f32⟩
  | .hbm, ⟨5, _⟩ => ⟨S_, .i32⟩
  | .hbm, ⟨6, _⟩ => ⟨S_, .f32⟩
  | .hbm, ⟨7, _⟩ => ⟨S10240x1024, .f32⟩
  | .hbm, ⟨8, _⟩ => ⟨S1024x512, .bf16⟩
  | .hbm, ⟨9, _⟩ => ⟨S10240x512, .bf16⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S160000, .i32⟩
  | .hbm, ⟨14, _⟩ => ⟨S160000, .i32⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S160000, .i32⟩
  | .hbm, ⟨22, _⟩ => ⟨S160000, .i32⟩
  | .hbm, ⟨23, _⟩ => ⟨S_, .i32⟩
  | .hbm, ⟨24, _⟩ => ⟨S160000, .i32⟩
  | .hbm, ⟨25, _⟩ => ⟨S160000, .i32⟩
  | .hbm, ⟨26, _⟩ => ⟨S_, .f32⟩
  | .hbm, ⟨27, _⟩ => ⟨S10240x10240, .f32⟩
  | .hbm, ⟨28, _⟩ => ⟨S_, .i32⟩
  | .hbm, ⟨29, _⟩ => ⟨S160000, .i32⟩
  | .hbm, ⟨30, _⟩ => ⟨S160000, .i1⟩
  | .hbm, ⟨31, _⟩ => ⟨S_, .i32⟩
  | .hbm, ⟨32, _⟩ => ⟨S160000, .i32⟩
  | .hbm, ⟨33, _⟩ => ⟨S160000, .i32⟩
  | .hbm, ⟨34, _⟩ => ⟨S160000, .i32⟩
  | .hbm, ⟨35, _⟩ => ⟨S_, .i32⟩
  | .hbm, ⟨36, _⟩ => ⟨S160000, .i32⟩
  | .hbm, ⟨37, _⟩ => ⟨S160000, .i1⟩
  | .hbm, ⟨38, _⟩ => ⟨S_, .i32⟩
  | .hbm, ⟨39, _⟩ => ⟨S160000, .i32⟩
  | .hbm, ⟨40, _⟩ => ⟨S160000, .i32⟩
  | .hbm, ⟨41, _⟩ => ⟨S160000, .i32⟩
  | .hbm, ⟨42, _⟩ => ⟨S160000x1, .i32⟩
  | .hbm, ⟨43, _⟩ => ⟨S160000x1, .i32⟩
  | .hbm, ⟨44, _⟩ => ⟨S160000x2, .i32⟩
  | .hbm, ⟨45, _⟩ => ⟨S10240x10240, .f32⟩
  | .hbm, ⟨46, _⟩ => ⟨S10240x512, .f32⟩
  | .hbm, ⟨47, _⟩ => ⟨S10000x512, .f32⟩
  | .local _ .vmem, ⟨0, _⟩ => ⟨S1280x1024, .f32⟩
  | .local _ .vmem, ⟨1, _⟩ => ⟨S1280x1024, .f32⟩
  | .local _ .vmem, ⟨2, _⟩ => ⟨S1024x512, .bf16⟩
  | .local _ .vmem, ⟨3, _⟩ => ⟨S1280x512, .bf16⟩
  | .local _ .vmem, ⟨4, _⟩ => ⟨S1280x512, .bf16⟩
  | .local _ .vmem, ⟨5, _⟩ => ⟨S256x10240, .f32⟩
  | .local _ .vmem, ⟨6, _⟩ => ⟨S256x10240, .f32⟩
  | .local _ .vmem, ⟨7, _⟩ => ⟨S10240x512, .bf16⟩
  | .local _ .vmem, ⟨8, _⟩ => ⟨S256x512, .f32⟩
  | .local _ .vmem, ⟨9, _⟩ => ⟨S256x512, .f32⟩
  | _, _ => ⟨S10000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_c_1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v3 : Ref sig .tc := ⟨.hbm, 17, rfl⟩
abbrev main_c_2 : Ref sig .tc := ⟨.hbm, 18, rfl⟩
abbrev main_c_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_c_4 : Ref sig .tc := ⟨.hbm, 28, rfl⟩
abbrev main_v6 : Ref sig .tc := ⟨.hbm, 29, rfl⟩
abbrev main_v7 : Ref sig .tc := ⟨.hbm, 30, rfl⟩
abbrev main_c_5 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_6 : Ref sig .tc := ⟨.hbm, 35, rfl⟩
abbrev main_v11 : Ref sig .tc := ⟨.hbm, 36, rfl⟩
abbrev main_v12 : Ref sig .tc := ⟨.hbm, 37, rfl⟩
abbrev main_c_7 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x10240 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  pads_S10000x1024_S10240x1024_02400_000 : S10000x1024.Pads (![0, 0] : Fin 2 → Nat) ![240, 0] ![0, 0] S10240x1024
  h_S_ : 0 < S_.numel
  bitsLt_bf16_f32 : FTy.bits .bf16 < FTy.bits .f32
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1280x512_S1280x512_0_0 : ∀ a, (![0, 0] : Fin 2 → Nat) a + S1280x512.size a ≤ S1280x512.size a
  h_S1280x512 : 0 < S1280x512.numel
  packedbf16_S1280x512_S1280x512_0_0 : (Rect.unit (s := S1280x512) ![0, 0] S1280x512.size inb_S1280x512_S1280x512_0_0).PackedRows (EltTy.packing .bf16)
  bcast_S_S160000 : S_.BroadcastsInDim S160000 (![] : Fin 0 → Fin S160000.rank)
  bcast_S_S10240x10240 : S_.BroadcastsInDim S10240x10240 (![] : Fin 0 → Fin S10240x10240.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  inb_S256x10240_S256x10240_0_0 : ∀ a, (![0, 0] : Fin 2 → Nat) a + S256x10240.size a ≤ S256x10240.size a
  h_S256x10240 : 0 < S256x10240.numel
  shapeCasts_S256x10240_S256x10240 : S256x10240.ShapeCasts S256x10240
  inb_S10240x512_S10240x512_0_0 : ∀ a, (![0, 0] : Fin 2 → Nat) a + S10240x512.size a ≤ S10240x512.size a
  h_S10240x512 : 0 < S10240x512.numel
  shapeCasts_S10240x512_S10240x512 : S10240x512.ShapeCasts S10240x512
  inb_S256x512_S256x512_0_0 : ∀ a, (![0, 0] : Fin 2 → Nat) a + S256x512.size a ≤ S256x512.size a
  h_S256x512 : 0 < S256x512.numel
  slices_S10240x512_S10000x512_0_0 : S10240x512.Slices ![0, 0] S10000x512
  dot_S1280x1024_S1024x512_S1280x512_1_0_0_1_n_n_wf : DotDims.WF S1280x1024 S1024x512 S1280x512 [1] [0] [0] [1] [] []
  scatter_S10240x10240_S160000x2_S160000_n_01_01_1_wf : ScatterDims.WF S10240x10240 S160000x2 S160000 [] [0, 1] [0, 1] 1
  dot_S256x10240_S10240x512_S256x512_1_0_0_1_n_n_wf : DotDims.WF S256x10240 S10240x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x1024.size a ≤ S10240x1024.size a
  hwx0_0 : ∀ i : grid0.Coords, EltTy.bits .f32 = 32 ∨ (Rect.block (s := S10240x1024) S1280x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x512.size a ≤ S10240x512.size a
  hwx0_2 : ∀ i : grid0.Coords, EltTy.bits .bf16 = 32 ∨ (Rect.block (s := S10240x512) S1280x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x10240.size a ≤ S10240x10240.size a
  hwx1_0 : ∀ i : grid1.Coords, EltTy.bits .f32 = 32 ∨ (Rect.block (s := S10240x10240) S256x10240.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x512.size a ≤ S10240x512.size a
  hwx1_1 : ∀ i : grid1.Coords, EltTy.bits .bf16 = 32 ∨ (Rect.block (s := S10240x512) S10240x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S10240x512.size a
  hwx1_2 : ∀ i : grid1.Coords, EltTy.bits .f32 = 32 ∨ (Rect.block (s := S10240x512) S256x512.size (cc1_transform_2 i) (hinb1_2 i)).WholeWords (EltTy.packing .f32)

variable [Facts₀]

def dot_S1280x1024_S1024x512_S1280x512_1_0_0_1_n_n : DotDims S1280x1024 S1024x512 S1280x512 where
  lhsContracting := [1]
  rhsContracting := [0]
  lhsNonContracting := [0]
  rhsNonContracting := [1]
  lhsBatch := []
  rhsBatch := []
  wf := dot_S1280x1024_S1024x512_S1280x512_1_0_0_1_n_n_wf
def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def dot_S256x10240_S10240x512_S256x512_1_0_0_1_n_n : DotDims S256x10240 S10240x512 S256x512 where
  lhsContracting := [1]
  rhsContracting := [0]
  lhsNonContracting := [0]
  rhsNonContracting := [1]
  lhsBatch := []
  rhsBatch := []
  wf := dot_S256x10240_S10240x512_S256x512_1_0_0_1_n_n_wf

abbrev win0_0 : Pipeline.Window sig grid0 :=
  Pipeline.Window.ofSpec (Memref.whole main_v0) S1280x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1280x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S256x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10240x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S256x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x1024 : Shape := ⟨2, ![10000, 1024]⟩
abbrev S1024x512 : Shape := ⟨2, ![1024, 512]⟩
abbrev S160000 : Shape := ⟨1, ![160000]⟩
abbrev S10000x512 : Shape := ⟨2, ![10000, 512]⟩
abbrev S_ : Shape := ⟨0, ![]⟩
abbrev S160000x1 : Shape := ⟨2, ![160000, 1]⟩
abbrev S160000x512 : Shape := ⟨2, ![160000, 512]⟩

abbrev nBuf : Space → Nat
  | .hbm => 25
  | .vmem => 0
  | .smem => 0
  | _ => 0

abbrev bufTy : (tb : Table) → Fin (tcTables nBuf tb) → BufTy
  | .hbm, ⟨0, _⟩ => ⟨S10000x1024, .f32⟩
  | .hbm, ⟨1, _⟩ => ⟨S1024x512, .f32⟩
  | .hbm, ⟨2, _⟩ => ⟨S160000, .i32⟩
  | .hbm, ⟨3, _⟩ => ⟨S160000, .i32⟩
  | .hbm, ⟨4, _⟩ => ⟨S160000, .f32⟩
  | .hbm, ⟨5, _⟩ => ⟨S10000x512, .f32⟩
  | .hbm, ⟨6, _⟩ => ⟨S_, .i32⟩
  | .hbm, ⟨7, _⟩ => ⟨S160000, .i32⟩
  | .hbm, ⟨8, _⟩ => ⟨S160000, .i1⟩
  | .hbm, ⟨9, _⟩ => ⟨S_, .i32⟩
  | .hbm, ⟨10, _⟩ => ⟨S160000, .i32⟩
  | .hbm, ⟨11, _⟩ => ⟨S160000, .i32⟩
  | .hbm, ⟨12, _⟩ => ⟨S160000, .i32⟩
  | .hbm, ⟨13, _⟩ => ⟨S160000x1, .i32⟩
  | .hbm, ⟨14, _⟩ => ⟨S160000x512, .f32⟩
  | .hbm, ⟨15, _⟩ => ⟨S160000x1, .f32⟩
  | .hbm, ⟨16, _⟩ => ⟨S160000x512, .f32⟩
  | .hbm, ⟨17, _⟩ => ⟨S160000x512, .f32⟩
  | .hbm, ⟨18, _⟩ => ⟨S_, .f32⟩
  | .hbm, ⟨19, _⟩ => ⟨S10000x512, .f32⟩
  | .hbm, ⟨20, _⟩ => ⟨S160000x1, .i32⟩
  | .hbm, ⟨21, _⟩ => ⟨S10000x512, .f32⟩
  | .hbm, ⟨22, _⟩ => ⟨S_, .f32⟩
  | .hbm, ⟨23, _⟩ => ⟨S10000x512, .f32⟩
  | .hbm, ⟨24, _⟩ => ⟨S10000x512, .f32⟩
  | _, _ => ⟨S10000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  dot_S10000x1024_S1024x512_S10000x512_1_0_0_1_n_n_wf : DotDims.WF S10000x1024 S1024x512 S10000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1

variable [Facts₀]

def dot_S10000x1024_S1024x512_S10000x512_1_0_0_1_n_n : DotDims S10000x1024 S1024x512 S10000x512 where
  lhsContracting := [1]
  rhsContracting := [0]
  lhsNonContracting := [0]
  rhsNonContracting := [1]
  lhsBatch := []
  rhsBatch := []
  wf := dot_S10000x1024_S1024x512_S10000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf

class Facts : Prop extends Facts₀ where

variable [Facts]
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.Reg0.lean ====
/-
  The first call's output array, as one function of the two arrays it reads.

  The call walks 8 blocks of 1280 rows. At a block it loads the block's rows of the padded feature matrix and the
  whole weight matrix, multiplies them into a zero accumulator, and writes the block's rows of the product. The
  blocks tile the 10240 rows, so after the call the output array holds, at (r, j), the sum over k of
  left (r, k) · right (k, j). Changes of float format are the identity on the ideal values.
-/
import proofs.«403788_j20452634263994_3_alg».proof.Proof.Gen.KernelIdeal.Frame
import proofs.«403788_j20452634263994_3_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The padded feature matrix as the call finds it. -/
abbrev lhs (c : Dev nD) : S10240x1024.Idx → EReal := V c main_v0
/-- The weight matrix as the call finds it. -/
abbrev rhs (c : Dev nD) : S1024x512.Idx → EReal := V c main_v1
/-- The call's output array after the call. -/
abbrev out (c : Dev nD) : S10240x512.Idx → EReal := (dat0 (F := Ideal) V c).arrAt 2 cfg0.N

/-- The zero offsets of a whole-block access, however spelt. -/
private theorem zero_off : (![0, 0] : Fin 2 → Nat) = fun _ => 0 := funext fun a => by fin_cases a <;> rfl

/-- The matrix product of two arrays, entry by entry: at (r, j), the sum over k of left (r, k) · right (k, j). -/
private abbrev prod (A : S10240x1024.Idx → EReal) (B : S1024x512.Idx → EReal) : S10240x512.Idx → EReal :=
  fun i => ∑ k : Fin 1024, A (ix2 ⟨(i 0).val, idx2_lt0 i⟩ k) * B (ix2 k ⟨(i 1).val, idx2_lt1 i⟩)

/-- What the body stores, at an entry of the block: the shape casts and the format changes are the identity and the
    product into the zero accumulator is the sum over the contraction position. -/
private theorem payload_apply (x0 : Vec Ideal S1280x1024 .f32) (x1 : Vec Ideal S1024x512 .bf16) (y : S1280x512.Idx) :
    k0_pay1 (F := Ideal) x0 x1 y
      = ∑ k : Fin 1024, x0 (ix2 ⟨(y 0).val, idx2_lt0 y⟩ k) * x1 (ix2 k ⟨(y 1).val, idx2_lt1 y⟩) := by
  unfold k0_pay1
  rw [shapeCast_self, shapeCast_self]
  exact Idealize.ShloMosaic.PlainDot.matmul_zero_apply_at (M := 1280) (K := 1024) (N := 512) (φ₁ := .bf16) (φ₂ := .bf16)
    dot_S1280x1024_S1024x512_S1280x512_1_0_0_1_n_n rfl rfl rfl rfl rfl rfl rfl rfl none
    (truncf (F := Ideal) FTy.bf16 x0 bitsLt_bf16_f32) x1 y

/-- An entry of the stored block is the product's entry at an array index, when the left block's row is the left
    array's row of that index and the right block's column is the right array's column of it. -/
private theorem payload_eq_prod (A : S10240x1024.Idx → EReal) (B : S1024x512.Idx → EReal)
    (x0 : Vec Ideal S1280x1024 .f32) (x1 : Vec Ideal S1024x512 .bf16) (y : S1280x512.Idx) (i : S10240x512.Idx)
    (h0 : ∀ k : Fin 1024, x0 (ix2 ⟨(y 0).val, idx2_lt0 y⟩ k) = A (ix2 ⟨(i 0).val, idx2_lt0 i⟩ k))
    (h1 : ∀ k : Fin 1024, x1 (ix2 k ⟨(y 1).val, idx2_lt1 y⟩) = B (ix2 k ⟨(i 1).val, idx2_lt1 i⟩)) :
    k0_pay1 (F := Ideal) x0 x1 y = prod A B i := by
  rw [payload_apply]
  exact Finset.sum_congr rfl fun k _ => by rw [h0 k, h1 k]

/-- The printed index maps, decided over the grid: the left window and the output window sit at block row t and
    block column 0; the right window is the whole array. -/
private theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the call finds them: the left block's
    row r is the left array's row t · 1280 + r, the right block is the right array, and the stored block's entry
    (r, j) lands at (t · 1280 + r, j). -/
private theorem flushed_eq (c : Dev nD) (t : Fin cfg0.N) :
    (dat0 V c).flushed 2 t = ((cfg0.win 2).blk t).view.read (Elt Ideal) (prod (lhs V c) (rhs V c)) := by
  show (cfg0.win 2).cut (grid0.coords t) ((dat0 V c).after 2 t) = _
  rw [after0_2]
  unfold out0_2
  rw [View.canon_unit_zero zero_off]
  simp only [View.ld_unit_zero (S := S1280x1024) zero_off, View.ld_unit_zero (S := S1024x512) zero_off]
  obtain ⟨e00, e01, e10, e11, e20, e21⟩ := index_facts t
  funext y
  show k0_pay1 (F := Ideal) (iblk0 V c 0 t) (iblk0 V c 1 t) y
    = prod (lhs V c) (rhs V c) (((cfg0.win 2).blk t).view.emb y)
  refine payload_eq_prod (lhs V c) (rhs V c) (iblk0 V c 0 t) (iblk0 V c 1 t) y (((cfg0.win 2).blk t).view.emb y)
    (fun k => ?_) (fun k => ?_)
  · show V c main_v0 (((cfg0.win 0).blk t).view.emb (ix2 ⟨(y 0).val, idx2_lt0 y⟩ k)) = V c main_v0 _
    refine congrArg (V c main_v0) ?_
    funext a; apply Fin.ext
    match a with
    | ⟨0, _⟩ =>
      show win0_0.index t (0 : Fin 2) * 1280 + 1 * (y 0).val = win0_2.index t (0 : Fin 2) * 1280 + 1 * (y 0).val
      omega
    | ⟨1, _⟩ =>
      show win0_0.index t (1 : Fin 2) * 1024 + 1 * k.val = k.val
      omega
  · show V c main_v1 (((cfg0.win 1).blk t).view.emb (ix2 k ⟨(y 1).val, idx2_lt1 y⟩)) = V c main_v1 _
    refine congrArg (V c main_v1) ?_
    funext a; apply Fin.ext
    match a with
    | ⟨0, _⟩ =>
      show win0_1.index t (0 : Fin 2) * 1024 + 1 * k.val = k.val
      omega
    | ⟨1, _⟩ =>
      show win0_1.index t (1 : Fin 2) * 512 + 1 * (y 1).val = win0_2.index t (1 : Fin 2) * 512 + 1 * (y 1).val
      omega

/-- An index of the output array is in point t's block iff each coordinate is in the block's range on its axis. -/
private theorem mem_blk (t : Fin cfg0.N) (i : S10240x512.Idx) :
    i ∈ ((cfg0.win 2).blk t).view.set ↔ ∀ a : Fin 2, win0_2.index t a * S1280x512.size a ≤ (i a).val
      ∧ (i a).val < win0_2.index t a * S1280x512.size a + S1280x512.size a := by
  show i ∈ ((View.whole main_v2).slice (win0_2.rect t)).set ↔ _
  rw [View.set_slice_whole, Rect.mem_set_unit]
  exact Iff.rfl

/-- The 8 blocks of 1280 rows tile the 10240 rows: row r is in the block of point r / 1280, which writes back. -/
private theorem cover (i : S10240x512.Idx) :
    ∃ t : Fin cfg0.N, (cfg0.win 2).flush t = true ∧ i ∈ ((cfg0.win 2).blk t).view.set := by
  have hi0 : (i 0).val < 10240 := idx2_lt0 i
  have hi1 : (i 1).val < 512 := idx2_lt1 i
  have hN : (i 0).val / 1280 < cfg0.N := by rw [show cfg0.N = 8 from N_0]; omega
  obtain ⟨-, -, -, -, e20, e21⟩ := index_facts ⟨(i 0).val / 1280, hN⟩
  have e20' : win0_2.index ⟨(i 0).val / 1280, hN⟩ (0 : Fin 2) = (i 0).val / 1280 := e20
  refine ⟨⟨(i 0).val / 1280, hN⟩, flush0_2 _, ?_⟩
  rw [mem_blk]
  intro a
  match a with
  | ⟨0, _⟩ =>
    show win0_2.index ⟨(i 0).val / 1280, hN⟩ (0 : Fin 2) * 1280 ≤ (i 0).val
      ∧ (i 0).val < win0_2.index ⟨(i 0).val / 1280, hN⟩ (0 : Fin 2) * 1280 + 1280
    omega
  | ⟨1, _⟩ =>
    show win0_2.index ⟨(i 0).val / 1280, hN⟩ (1 : Fin 2) * 512 ≤ (i 1).val
      ∧ (i 1).val < win0_2.index ⟨(i 0).val / 1280, hN⟩ (1 : Fin 2) * 512 + 512
    omega

/-- The output array after the call is the product of the two arrays as the call finds them. -/
private theorem out_eq (c : Dev nD) : out V c = prod (lhs V c) (rhs V c) :=
  (dat0 V c).arrAt_eq_of_cover 2 (prod (lhs V c) (rhs V c)) (fun t _ => flushed_eq V c t) cover

/-- The first call's output array after the call: the matrix product of the two input arrays as the call finds them. -/
theorem arr (c : Dev nD) (i : S10240x512.Idx) :
    out V c i = ∑ k : Fin 1024, lhs V c (ix2 ⟨(i 0).val, idx2_lt0 i⟩ k) * rhs V c (ix2 k ⟨(i 1).val, idx2_lt1 i⟩) :=
  congrFun (out_eq V c) i

end Cert.KernelIdeal.Reg0

end
-- ==== Proof.Reg1.lean ====
/-
  The second call's output array, as one function of the two arrays it reads.

  The call walks 40 blocks of 256 rows. At a block it loads the block's rows of the dense adjacency matrix and the
  whole support matrix, multiplies them into a zero accumulator, takes the maximum with zero, and writes the block's
  rows. The blocks tile the 10240 rows, so after the call the output array holds, at (r, j),
  max (∑ s, A (r, s) · S (s, j)) 0.
-/
import proofs.«403788_j20452634263994_3_alg».proof.Proof.Gen.KernelIdeal.Frame
import proofs.«403788_j20452634263994_3_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The dense adjacency matrix as the call finds it. -/
abbrev lhs (c : Dev nD) : S10240x10240.Idx → EReal := V c main_v19
/-- The support matrix as the call finds it. -/
abbrev rhs (c : Dev nD) : S10240x512.Idx → EReal := V c main_v2
/-- The call's output array after the call. -/
abbrev out (c : Dev nD) : S10240x512.Idx → EReal := (dat1 (F := Ideal) V c).arrAt 2 cfg1.N

/-- Relu of the matrix product of two whole arrays, entry by entry. -/
private abbrev reluProd (A : S10240x10240.Idx → EReal) (S : S10240x512.Idx → EReal) : S10240x512.Idx → EReal :=
  fun i => max (∑ s : Fin 10240, A (ix2 ⟨(i 0).val, idx2_lt0 i⟩ s) * S (ix2 s ⟨(i 1).val, idx2_lt1 i⟩)) 0

/-- The block payload at an index: relu of the row-by-column product. -/
private theorem pay_apply (x0 : Vec Ideal S256x10240 .f32) (x1 : Vec Ideal S10240x512 .bf16) (y : S256x512.Idx) :
    k1_pay1 (F := Ideal) x0 x1 y
      = max (∑ s : Fin 10240, x0 (ix2 ⟨(y 0).val, idx2_lt0 y⟩ s) * x1 (ix2 s ⟨(y 1).val, idx2_lt1 y⟩)) 0 := by
  unfold k1_pay1
  rw [shapeCast_self, shapeCast_self, maximumf_apply, broadcast_apply]
  refine (congrArg₂ max (Idealize.ShloMosaic.PlainDot.matmul_zero_apply_at
    dot_S256x10240_S10240x512_S256x512_1_0_0_1_n_n rfl rfl rfl rfl rfl rfl rfl rfl none
    (truncf (F := Ideal) .bf16 x0 bitsLt_bf16_f32) x1 y) Ideal.ofBits_zero_f32).trans ?_
  exact congrArg (fun z => max z 0) (Finset.sum_congr rfl fun k _ => rfl)

/-- A block of 256 rows starting at row b·256: the payload of those rows of A and of the whole of S is those rows
    of relu (A · S). -/
private theorem pay_block (A : S10240x10240.Idx → EReal) (S : S10240x512.Idx → EReal)
    (x0 : Vec Ideal S256x10240 .f32) (x1 : Vec Ideal S10240x512 .bf16) (b : Nat)
    (h0 : ∀ (a : Fin 256) (s : Fin 10240) (h : b * 256 + a.val < 10240), x0 (ix2 a s) = A (ix2 ⟨b * 256 + a.val, h⟩ s))
    (h1 : ∀ (s : Fin 10240) (q : Fin 512), x1 (ix2 s q) = S (ix2 s q))
    (y : S256x512.Idx) (i : S10240x512.Idx) (hi0 : (i 0).val = b * 256 + (y 0).val) (hi1 : (i 1).val = (y 1).val) :
    k1_pay1 (F := Ideal) x0 x1 y = reluProd A S i := by
  rw [pay_apply]
  refine congrArg (fun z => max z 0) (Finset.sum_congr rfl fun s _ => ?_)
  have hlt : b * 256 + (y 0).val < 10240 := hi0 ▸ idx2_lt0 i
  have hx0 : x0 (ix2 ⟨(y 0).val, idx2_lt0 y⟩ s) = A (ix2 ⟨(i 0).val, idx2_lt0 i⟩ s) :=
    (h0 ⟨(y 0).val, idx2_lt0 y⟩ s hlt).trans (congrArg (fun r => A (ix2 r s)) (Fin.ext hi0.symm))
  have hx1 : x1 (ix2 s ⟨(y 1).val, idx2_lt1 y⟩) = S (ix2 s ⟨(i 1).val, idx2_lt1 i⟩) :=
    (h1 s _).trans (congrArg (fun r => S (ix2 s r)) (Fin.ext hi1.symm))
  rw [hx0, hx1]

/-- The offset (0, 0) is the zero offset on both axes. -/
private theorem zero_off : (![0, 0] : Fin 2 → Nat) = fun _ => 0 := funext fun a => by fin_cases a <;> rfl

/-- The printed block index maps over the 40 points: the left block and the output block are block row t, every
    other block index is 0. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of relu (A · S) of the two arrays as the call finds them. -/
private theorem flushed_eq (c : Dev nD) (t : Fin cfg1.N) :
    (dat1 (F := Ideal) V c).flushed 2 t = ((cfg1.win 2).blk t).view.read (Elt Ideal) (reluProd (lhs V c) (rhs V c)) := by
  show (cfg1.win 2).cut (grid1.coords t) ((dat1 V c).after 2 t) = _
  rw [after1_2]
  unfold out1_2
  rw [View.canon_unit_zero zero_off]
  simp only [View.ld_unit_zero (S := S256x10240) zero_off, View.ld_unit_zero (S := S10240x512) zero_off]
  funext j
  show k1_pay1 (F := Ideal) (iblk1 V c 0 t) (iblk1 V c 1 t) j = reluProd (lhs V c) (rhs V c) (((cfg1.win 2).blk t).view.emb j)
  obtain ⟨e0, e1, e2, e3, e4, e5⟩ := idx_facts t
  refine pay_block (lhs V c) (rhs V c) _ _ t.val ?_ ?_ j _ ?_ ?_
  · intro a s h
    show V c main_v19 (((cfg1.win 0).blk t).view.emb (ix2 a s)) = V c main_v19 (ix2 ⟨t.val * 256 + a.val, h⟩ s)
    refine congrArg (V c main_v19) (funext fun ax => Fin.ext ?_)
    match ax with
    | ⟨0, _⟩ => show win1_0.index t (0 : Fin 2) * 256 + 1 * a.val = t.val * 256 + a.val; omega
    | ⟨1, _⟩ => show win1_0.index t (1 : Fin 2) * 10240 + 1 * s.val = s.val; omega
  · intro s q
    show V c main_v2 (((cfg1.win 1).blk t).view.emb (ix2 s q)) = V c main_v2 (ix2 s q)
    refine congrArg (V c main_v2) (funext fun ax => Fin.ext ?_)
    match ax with
    | ⟨0, _⟩ => show win1_1.index t (0 : Fin 2) * 10240 + 1 * s.val = s.val; omega
    | ⟨1, _⟩ => show win1_1.index t (1 : Fin 2) * 512 + 1 * q.val = q.val; omega
  · show win1_2.index t (0 : Fin 2) * 256 + 1 * (j 0).val = t.val * 256 + (j 0).val; omega
  · show win1_2.index t (1 : Fin 2) * 512 + 1 * (j 1).val = (j 1).val; omega

/-- An index of the output array is in point t's block iff each coordinate is in the block's range on its axis. -/
private theorem mem_blk (t : Fin cfg1.N) (i : S10240x512.Idx) :
    i ∈ ((cfg1.win 2).blk t).view.set ↔ ∀ a : Fin 2, win1_2.index t a * S256x512.size a ≤ (i a).val ∧ (i a).val < win1_2.index t a * S256x512.size a + S256x512.size a := by
  show i ∈ ((View.whole main_v20).slice (win1_2.rect t)).set ↔ _
  rw [View.set_slice_whole, Rect.mem_set_unit]
  exact Iff.rfl

/-- The 40 blocks of 256 rows tile the 10240 rows: row r is in the block of point r / 256. -/
private theorem cover (i : S10240x512.Idx) :
    ∃ t : Fin cfg1.N, (cfg1.win 2).flush t = true ∧ i ∈ ((cfg1.win 2).blk t).view.set := by
  have hi0 : (i 0).val < 10240 := idx2_lt0 i
  have hi1 : (i 1).val < 512 := idx2_lt1 i
  obtain ⟨t, ht⟩ : ∃ t : Fin cfg1.N, t.val = (i 0).val / 256 :=
    ⟨⟨(i 0).val / 256, lt_of_lt_of_eq (by omega : (i 0).val / 256 < 40) N_1.symm⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 512 ≤ (i 1).val ∧ (i 1).val < win1_2.index t (1 : Fin 2) * 512 + 512; omega

/-- The second call's output array after the call: relu of the matrix product of the two input arrays as the call finds them. -/
theorem arr (c : Dev nD) (i : S10240x512.Idx) :
    out V c i = max (∑ s : Fin 10240, lhs V c (ix2 ⟨(i 0).val, idx2_lt0 i⟩ s) * rhs V c (ix2 s ⟨(i 1).val, idx2_lt1 i⟩)) 0 :=
  congrFun ((dat1 (F := Ideal) V c).arrAt_eq_of_cover 2 (reluProd (lhs V c) (rhs V c)) (fun t _ => flushed_eq V c t) cover) i

end Cert.KernelIdeal.Reg1

end
-- ==== Proof.KHost.lean ====
/-
  The host side of the kernel program, read back: what each call finds in its two input arrays, and what the
  program's last operation leaves in the result buffer.

  Before the first call the host pads the feature matrix with 240 zero rows and converts the weight matrix (the
  identity on ideal values). Between the calls it clips both index vectors to [0, 9999], wraps a negative clipped
  index by adding 10240 (never taken after the clip, but written), pairs (destination, source) per edge, and
  accumulates the edge weights into a zero [10240 × 10240] matrix at those pairs. The second call reads that matrix
  and the first call's output. After it the host keeps the first 10000 rows.
-/
import proofs.«403788_j20452634263994_3_alg».proof.Proof.Gen.KernelIdeal.Frame
import proofs.«403788_j20452634263994_3_alg».proof.Proof.Reg0
import proofs.«403788_j20452634263994_3_alg».proof.Proof.Reg1
import Idealize.ShloMosaic.Lib.StableHlo.Run

set_option maxRecDepth 16384

noncomputable section

open scoped BigOperators

namespace Cert.KernelIdeal.KHost

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The five argument arrays as launched, at their literal types. -/
abbrev av (c : Dev nD) : S10000x1024.Idx → EReal := m ((c : Thread nD τ).loc main_arg0)
abbrev aW (c : Dev nD) : S1024x512.Idx → EReal := m ((c : Thread nD τ).loc main_arg1)
abbrev asrc (c : Dev nD) : S160000.Idx → BitVec 32 := m ((c : Thread nD τ).loc main_arg2)
abbrev adst (c : Dev nD) : S160000.Idx → BitVec 32 := m ((c : Thread nD τ).loc main_arg3)
abbrev aw (c : Dev nD) : S160000.Idx → EReal := m ((c : Thread nD τ).loc main_arg4)

/-- jnp.clip of an index vector to [0, 9999], as the host computes it. -/
def clip (x : IVec S160000 32) : IVec S160000 32 :=
  minsi (broadcastInDim S160000 ![] bcast_S_S160000 (id (constantI S_ 32 9999#32)))
    (maxsi (broadcastInDim S160000 ![] bcast_S_S160000 (id (constantI S_ 32 0#32))) x)

/-- The scatter's index normalisation: a negative index has the axis extent 10240 added. -/
def wrap (x : IVec S160000 32) : IVec S160000 32 :=
  select (cmpi .slt x (broadcastInDim S160000 ![] bcast_S_S160000 (constantI S_ 32 0#32)))
    (addi x (broadcastInDim S160000 ![] bcast_S_S160000 (constantI S_ 32 10240#32))) x

/-- The [160000 × 2] table of (destination, source) pairs the scatter reads. -/
def pairs (dst src : IVec S160000 32) : IVec S160000x2 32 :=
  concatenate S160000x2 1 [⟨S160000x1, broadcastInDim S160000x1 ![0] bcast_S160000_S160000x1_0 (wrap (clip dst))⟩,
    ⟨S160000x1, broadcastInDim S160000x1 ![0] bcast_S160000_S160000x1_0 (wrap (clip src))⟩] concatenates_S160000x1_S160000x1_S160000x2_d1

/-- The dense adjacency matrix the host builds. -/
def adj (dst src : IVec S160000 32) (w : S160000.Idx → EReal) : S10240x10240.Idx → EReal :=
  Host.scatterAdd (F := Ideal) scatter_S10240x10240_S160000x2_S160000_n_01_01_1
    (broadcastInDim S10240x10240 ![] bcast_S_S10240x10240 (constant (F := Ideal) S_ .f32 0x00000000#32)) (pairs dst src) w

/-- A buffer that no operation of a host stretch writes reads the same after the stretch as before it. -/
local macro "unwritten" : tactic =>
  `(tactic| (refine StableHlo.after_of_forall_not_mem _ _ (List.forall_iff_forall_mem.mp ?_)
             simp only [hostOps0, hostOps0_1, hostOps0_2, hostOps1, hostOps1_1, hostOps1_2, hostOps1_3, hostOps1_4,
               List.Forall, StableHlo.nullary_writes, StableHlo.unary_writes, StableHlo.binary_writes,
               StableHlo.ternary_writes, Finset.mem_singleton]
             repeat' apply And.intro
             all_goals exact StableHlo.devRef_ne_of_ne (by decide)))

/-- The first call finds the padded feature matrix in its first window's array. -/
theorem first_lhs (c : Dev nD) :
    Reg0.lhs (V3 m ρ) c = pad S10240x1024 ![0, 0] ![240, 0] ![0, 0] (av m c) (sitofp (F := Ideal) .f32 (constantI S_ 32 0#32))
      pads_S10000x1024_S10240x1024_02400_000 h_S_ := by
  show StableHlo.after hostOps0_2 (StableHlo.after hostOps0_1 (StableHlo.after hostOps0 _)) (Proc.devRef .tc main_v0) = _
  simp only [hostOps0, hostOps0_1, hostOps0_2]
  after_results
  rfl

/-- The first call finds the converted weight matrix in its second window's array. -/
theorem first_rhs (c : Dev nD) : Reg0.rhs (V3 m ρ) c = truncf (F := Ideal) .bf16 (aW m c) bitsLt_bf16_f32 := by
  show StableHlo.after hostOps0_2 (StableHlo.after hostOps0_1 (StableHlo.after hostOps0 _)) (Proc.devRef .tc main_v1) = _
  simp only [hostOps0, hostOps0_1, hostOps0_2]
  after_results

/-! What each host stretch between the calls leaves in the buffers the adjacency matrix is built from, over any
    contents `V` at the stretch's start. -/

private theorem lo_1 (V : Valuation τ sig (Elt Ideal)) :
    StableHlo.after hostOps1 V (Proc.devRef .tc main_c_0) = constantI S_ 32 0#32 := by
  simp only [hostOps1]; after_results <;> rfl

private theorem hi_1 (V : Valuation τ sig (Elt Ideal)) :
    StableHlo.after hostOps1 V (Proc.devRef .tc main_c_1) = constantI S_ 32 9999#32 := by
  simp only [hostOps1]; after_results <;> rfl

private theorem lo_2 (V : Valuation τ sig (Elt Ideal)) :
    StableHlo.after hostOps1_2 V (Proc.devRef .tc main_c_2) = constantI S_ 32 0#32 := by
  simp only [hostOps1_2]; after_results <;> rfl

private theorem hi_2 (V : Valuation τ sig (Elt Ideal)) :
    StableHlo.after hostOps1_2 V (Proc.devRef .tc main_c_3) = constantI S_ 32 9999#32 := by
  simp only [hostOps1_2]; after_results <;> rfl

private theorem clip_1 (V : Valuation τ sig (Elt Ideal)) :
    StableHlo.after hostOps1_1 V (Proc.devRef .tc main_v3)
      = minsi (broadcastInDim S160000 ![] bcast_S_S160000 (id (V (Proc.devRef .tc main_c_1))))
          (maxsi (broadcastInDim S160000 ![] bcast_S_S160000 (id (V (Proc.devRef .tc main_c_0)))) (V (Proc.devRef .tc main_arg2))) := by
  simp only [hostOps1_1]; after_results <;> rfl

private theorem clip_2 (V : Valuation τ sig (Elt Ideal)) :
    StableHlo.after hostOps1_3 V (Proc.devRef .tc main_v4)
      = minsi (broadcastInDim S160000 ![] bcast_S_S160000 (id (V (Proc.devRef .tc main_c_3))))
          (maxsi (broadcastInDim S160000 ![] bcast_S_S160000 (id (V (Proc.devRef .tc main_c_2)))) (V (Proc.devRef .tc main_arg3))) := by
  simp only [hostOps1_3]; after_results <;> rfl

private theorem scatter_4 (V : Valuation τ sig (Elt Ideal)) :
    StableHlo.after hostOps1_4 V (Proc.devRef .tc main_v19)
      = Host.scatterAdd (F := Ideal) scatter_S10240x10240_S160000x2_S160000_n_01_01_1
          (broadcastInDim S10240x10240 ![] bcast_S_S10240x10240 (constant (F := Ideal) S_ .f32 0x00000000#32))
          (concatenate S160000x2 1
            [⟨S160000x1, broadcastInDim S160000x1 ![0] bcast_S160000_S160000x1_0 (wrap (V (Proc.devRef .tc main_v4)))⟩,
             ⟨S160000x1, broadcastInDim S160000x1 ![0] bcast_S160000_S160000x1_0 (wrap (V (Proc.devRef .tc main_v3)))⟩]
            concatenates_S160000x1_S160000x1_S160000x2_d1)
          (V (Proc.devRef .tc main_arg4)) := by
  simp only [hostOps1_4]; after_results_simp <;> rfl

/-! The index and weight vectors are written by no host operation and are no array of the first call, so at the
    first call's exit they are still as launched. -/

private theorem W4_src (c : Dev nD) : W4 m ρ c (Proc.devRef .tc main_arg2) = asrc m c :=
  calc W4 m ρ c (Proc.devRef .tc main_arg2)
    _ = W3 m ρ c (Proc.devRef .tc main_arg2) := W4_of_ne m ρ c main_arg2 (by decide)
    _ = W2 m ρ c (Proc.devRef .tc main_arg2) := by unwritten
    _ = W1 m ρ c (Proc.devRef .tc main_arg2) := by unwritten
    _ = W0 m ρ c (Proc.devRef .tc main_arg2) := by unwritten
    _ = asrc m c := rfl

private theorem W4_dst (c : Dev nD) : W4 m ρ c (Proc.devRef .tc main_arg3) = adst m c :=
  calc W4 m ρ c (Proc.devRef .tc main_arg3)
    _ = W3 m ρ c (Proc.devRef .tc main_arg3) := W4_of_ne m ρ c main_arg3 (by decide)
    _ = W2 m ρ c (Proc.devRef .tc main_arg3) := by unwritten
    _ = W1 m ρ c (Proc.devRef .tc main_arg3) := by unwritten
    _ = W0 m ρ c (Proc.devRef .tc main_arg3) := by unwritten
    _ = adst m c := rfl

private theorem W4_w (c : Dev nD) : W4 m ρ c (Proc.devRef .tc main_arg4) = aw m c :=
  calc W4 m ρ c (Proc.devRef .tc main_arg4)
    _ = W3 m ρ c (Proc.devRef .tc main_arg4) := W4_of_ne m ρ c main_arg4 (by decide)
    _ = W2 m ρ c (Proc.devRef .tc main_arg4) := by unwritten
    _ = W1 m ρ c (Proc.devRef .tc main_arg4) := by unwritten
    _ = W0 m ρ c (Proc.devRef .tc main_arg4) := by unwritten
    _ = aw m c := rfl

/-- The second call finds the adjacency matrix in its first window's array. -/
theorem second_lhs (c : Dev nD) : Reg1.lhs (V9 m ρ) c = adj (adst m c) (asrc m c) (aw m c) := by
  -- the clipped source indices, computed by the first clip and untouched afterwards
  have s0 : W5 m ρ c (Proc.devRef .tc main_c_0) = constantI S_ 32 0#32 := lo_1 (W4 m ρ c)
  have s1 : W5 m ρ c (Proc.devRef .tc main_c_1) = constantI S_ 32 9999#32 := hi_1 (W4 m ρ c)
  have sa : W5 m ρ c (Proc.devRef .tc main_arg2) = asrc m c :=
    calc W5 m ρ c (Proc.devRef .tc main_arg2)
      _ = W4 m ρ c (Proc.devRef .tc main_arg2) := by unwritten
      _ = asrc m c := W4_src m ρ c
  have hsrc : W8 m ρ c (Proc.devRef .tc main_v3) = clip (asrc m c) :=
    calc W8 m ρ c (Proc.devRef .tc main_v3)
      _ = W7 m ρ c (Proc.devRef .tc main_v3) := by unwritten
      _ = W6 m ρ c (Proc.devRef .tc main_v3) := by unwritten
      _ = _ := clip_1 (W5 m ρ c)
      _ = clip (asrc m c) := by rw [s0, s1, sa]; rfl
  -- the clipped destination indices, computed by the second clip
  have d0 : W7 m ρ c (Proc.devRef .tc main_c_2) = constantI S_ 32 0#32 := lo_2 (W6 m ρ c)
  have d1 : W7 m ρ c (Proc.devRef .tc main_c_3) = constantI S_ 32 9999#32 := hi_2 (W6 m ρ c)
  have da : W7 m ρ c (Proc.devRef .tc main_arg3) = adst m c :=
    calc W7 m ρ c (Proc.devRef .tc main_arg3)
      _ = W6 m ρ c (Proc.devRef .tc main_arg3) := by unwritten
      _ = W5 m ρ c (Proc.devRef .tc main_arg3) := by unwritten
      _ = W4 m ρ c (Proc.devRef .tc main_arg3) := by unwritten
      _ = adst m c := W4_dst m ρ c
  have hdst : W8 m ρ c (Proc.devRef .tc main_v4) = clip (adst m c) :=
    calc W8 m ρ c (Proc.devRef .tc main_v4)
      _ = _ := clip_2 (W7 m ρ c)
      _ = clip (adst m c) := by rw [d0, d1, da]; rfl
  -- the weights
  have hw : W8 m ρ c (Proc.devRef .tc main_arg4) = aw m c :=
    calc W8 m ρ c (Proc.devRef .tc main_arg4)
      _ = W7 m ρ c (Proc.devRef .tc main_arg4) := by unwritten
      _ = W6 m ρ c (Proc.devRef .tc main_arg4) := by unwritten
      _ = W5 m ρ c (Proc.devRef .tc main_arg4) := by unwritten
      _ = W4 m ρ c (Proc.devRef .tc main_arg4) := by unwritten
      _ = aw m c := W4_w m ρ c
  calc W9 m ρ c (Proc.devRef .tc main_v19)
    _ = _ := scatter_4 (W8 m ρ c)
    _ = adj (adst m c) (asrc m c) (aw m c) := by rw [hdst, hsrc, hw]; rfl

/-- The second call finds the first call's output in its second window's array. -/
theorem second_rhs (c : Dev nD) : Reg1.rhs (V9 m ρ) c = Reg0.out (V3 m ρ) c := by
  calc W9 m ρ c (Proc.devRef .tc main_v2)
    _ = W8 m ρ c (Proc.devRef .tc main_v2) := by unwritten
    _ = W7 m ρ c (Proc.devRef .tc main_v2) := by unwritten
    _ = W6 m ρ c (Proc.devRef .tc main_v2) := by unwritten
    _ = W5 m ρ c (Proc.devRef .tc main_v2) := by unwritten
    _ = W4 m ρ c (Proc.devRef .tc main_v2) := by unwritten
    _ = Reg0.out (V3 m ρ) c := W4_arr m ρ c 2

/-- The program's result buffer at the end. -/
abbrev result (c : Dev nD) : S10000x512.Idx → EReal := W11 m ρ c (Proc.devRef .tc main_v21)

/-- The result is the first 10000 rows of the second call's output. -/
theorem result_eq (c : Dev nD) :
    result m ρ c = extractStridedSlice S10000x512 ![0, 0] (Reg1.out (V9 m ρ) c) slices_S10240x512_S10000x512_0_0 := by
  show StableHlo.after hostOps2 (W10 m ρ c) (Proc.devRef .tc main_v21) = _
  simp only [hostOps2]
  after_results
  exact congrArg (fun x : S10240x512.Idx → EReal => extractStridedSlice S10000x512 ![0, 0] x slices_S10240x512_S10000x512_0_0)
    (W10_arr m ρ c 2)

end Cert.KernelIdeal.KHost

end
-- ==== Proof.KIndex.lean ====
/-
  Three host operations of the kernel program read at an index.

  The adjacency matrix: the host adds edge e's weight at (destination e, source e) of a zero matrix, after clipping
  both indices to [0, 9999]; a node number is its own clip. So entry (d, s) is the sum of the weights of the edges
  from s into d. The padded feature matrix is the feature matrix on the first 10000 rows and zero below. The final
  slice keeps the rows below 10000 as they are.
-/
import proofs.«403788_j20452634263994_3_alg».proof.Proof.KHost
import Idealize.ShloMosaic.Lib.StableHlo.Predicate
import Idealize.ShloMosaic.Lib.KernelVsHost
import Idealize.ShloMosaic.Lib.ValueLayout
import Idealize.ShloMosaic.Lib.Pipeline.Value
import Idealize.ShloMosaic.Lib.ValueIdx
import Idealize.ShloMosaic.PureOps.Ideal.Laws
import Mathlib.Algebra.BigOperators.Group.Finset.Defs

set_option maxRecDepth 16384

noncomputable section

open scoped BigOperators

namespace Cert.KernelIdeal.KIndex

open Idealize.ShloMosaic Idealize.ShloMosaic.TcCoe Idealize.ShloMosaic.ValueIdx Idealize.SL.Sem
open Cert.KernelIdeal Cert.KernelIdeal.Gen

/-! ## Words: a node number is its own clip, and is not negative -/

open Idealize.ShloMosaic.StableHlo.Predicate in
/-- A word below 10000 is its own clip to [0, 9999]. -/
private theorem clip_word (w : BitVec 32) (hw : w.toNat < 10000) :
    IntOp.minsi 9999#32 (IntOp.maxsi 0#32 w) = w := by
  have hti : w.toInt = w.toNat := toInt_eq_toNat_of_lt (by omega)
  have h0 : (0#32 : BitVec 32).toInt = 0 := by decide
  have h9 : (9999#32 : BitVec 32).toInt = 9999 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h9, decide_eq_true_eq]
  omega

open Idealize.ShloMosaic.StableHlo.Predicate in
/-- A word below 2³¹ is not negative, so the scatter's index normalisation leaves it. -/
private theorem wrap_word (w a : BitVec 32) (hw : w.toNat < 2 ^ 31) :
    Scalar.select (IntOp.cmpi .slt w 0#32) a w = w := by
  have hc : IntOp.cmpi .slt w 0#32 = 0#1 := by
    apply eq_zero_of_ne_one
    intro h1
    have := (slt_iff_toNat (a := w) (b := 0#32) hw (by decide)).1 h1
    simp at this
  rw [hc, select_zero]

/-- The clip at an edge whose word is a node number. -/
private theorem clip_apply (x : IVec S160000 32) (e : S160000.Idx) (h : (x e).toNat < 10000) :
    KHost.clip x e = x e := by
  show IntOp.minsi (broadcastInDim S160000 ![] bcast_S_S160000 (id (constantI S_ 32 9999#32)) e)
      (IntOp.maxsi (broadcastInDim S160000 ![] bcast_S_S160000 (id (constantI S_ 32 0#32)) e) (x e)) = x e
  rw [Idealize.ShloMosaic.StableHlo.Predicate.bcast_scalar bcast_S_S160000 h_S_,
    Idealize.ShloMosaic.StableHlo.Predicate.bcast_scalar bcast_S_S160000 h_S_]
  exact clip_word (x e) h

/-- The index normalisation at an edge whose word is below 2³¹. -/
private theorem wrap_apply (x : IVec S160000 32) (e : S160000.Idx) (h : (x e).toNat < 2 ^ 31) :
    KHost.wrap x e = x e := by
  show Scalar.select (IntOp.cmpi .slt (x e) (broadcastInDim S160000 ![] bcast_S_S160000 (constantI S_ 32 0#32) e))
      (IntOp.addi (x e) (broadcastInDim S160000 ![] bcast_S_S160000 (constantI S_ 32 10240#32) e)) (x e) = x e
  rw [Idealize.ShloMosaic.StableHlo.Predicate.bcast_scalar bcast_S_S160000 h_S_]
  exact wrap_word (x e) _ h

/-- Clipped then normalised, a node number is itself. -/
private theorem wrap_clip_apply (x : IVec S160000 32) (e : S160000.Idx) (h : (x e).toNat < 10000) :
    KHost.wrap (KHost.clip x) e = x e := by
  have hc := clip_apply x e h
  rw [wrap_apply _ e (by rw [hc]; omega), hc]

/-! ## The scatter's dimension numbers on one edge -/

/-- The printed scatter's dimension numbers. -/
private abbrev sd : ScatterDims S10240x10240 S160000x2 S160000 := scatter_S10240x10240_S160000x2_S160000_n_01_01_1

/-- Edge e reads component c of its start index at row e, column c of the table. -/
private theorem siIdx_eq (e : Fin 160000) (c : Fin sd.scatterDimsToOperandDims.length) :
    sd.siIdx (ix1 e) c = ix2 e (⟨c.val, c.isLt⟩ : Fin 2) := by
  funext b
  match b with
  | ⟨0, _⟩ =>
    unfold ScatterDims.siIdx
    rw [dif_neg (show ¬ ((0 : Nat) = sd.indexVectorDim) from by decide)]
    unfold ScatterDims.siCoord
    apply Fin.ext
    simp only [Fin.val_cast]
    have hx : ∀ X : Fin 1, ((ix1 e : S160000.Idx) X).val = e.val := fun X => by
      have hX : X = 0 := Subsingleton.elim _ _
      subst hX; rfl
    exact hx _
  | ⟨1, _⟩ =>
    unfold ScatterDims.siIdx
    rw [dif_pos (show (1 : Nat) = sd.indexVectorDim from rfl)]
    rfl

/-- The window start on the row axis is the table's first column, read signed. -/
private theorem start_0 (idx : IVec S160000x2 32) (e : Fin 160000) :
    sd.start (ix1 e) idx (0 : Fin 2) = (idx (ix2 e (0 : Fin 2))).toInt := by
  unfold ScatterDims.start
  rw [dif_pos (by decide), siIdx_eq]
  rfl

/-- The window start on the column axis is the table's second column, read signed. -/
private theorem start_1 (idx : IVec S160000x2 32) (e : Fin 160000) :
    sd.start (ix1 e) idx (1 : Fin 2) = (idx (ix2 e (1 : Fin 2))).toInt := by
  unfold ScatterDims.start
  rw [dif_pos (by decide), siIdx_eq]
  rfl

/-- Both operand axes are inserted, so the window coordinate is zero on each. -/
private theorem window_eq (j : S160000.Idx) (a : Fin 2) : sd.window j a = 0 := by
  unfold ScatterDims.window
  rw [dif_neg (by revert a; decide)]

/-! ## The (destination, source) table at one edge, and where the edge lands -/

/-- A vector laid as a one-column matrix reads the vector's entry at the row. -/
private theorem col_apply (y : IVec S160000 32) (e : Fin 160000) :
    broadcastInDim S160000x1 ![0] bcast_S160000_S160000x1_0 y (ix2 e (0 : Fin 1)) = y (ix1 e) :=
  broadcastInDim_apply _ bcast_S160000_S160000x1_0 y _ (ix1 e) (fun a => match a with
    | ⟨0, _⟩ => by show e.val = if (160000 : Nat) = 1 then 0 else e.val; rw [if_neg (by decide)])

/-- The table's first column at row e is the destination word, clipped and normalised. -/
private theorem pairs_0 (dst src : IVec S160000 32) (e : Fin 160000) :
    KHost.pairs dst src (ix2 e (0 : Fin 2)) = KHost.wrap (KHost.clip dst) (ix1 e) := by
  unfold KHost.pairs
  refine (concatenate_pair_apply_left (t := S160000x2) (s₁ := S160000x1) (s₂ := S160000x1) (1 : Fin 2) _ _
    concatenates_S160000x1_S160000x1_S160000x2_d1 _ rfl (ix2 e (0 : Fin 1)) (fun b => ?_)).trans (col_apply _ e)
  match b with
  | ⟨0, _⟩ => rfl
  | ⟨1, _⟩ => rfl

/-- The table's second column at row e is the source word, clipped and normalised. -/
private theorem pairs_1 (dst src : IVec S160000 32) (e : Fin 160000) :
    KHost.pairs dst src (ix2 e (1 : Fin 2)) = KHost.wrap (KHost.clip src) (ix1 e) := by
  unfold KHost.pairs
  refine (concatenate_pair_apply_right (t := S160000x2) (s₁ := S160000x1) (s₂ := S160000x1) (1 : Fin 2) _ _
    concatenates_S160000x1_S160000x1_S160000x2_d1 _ rfl rfl (ix2 e (0 : Fin 1)) (fun b hb => ?_) rfl).trans (col_apply _ e)
  match b with
  | ⟨0, _⟩ => rfl
  | ⟨1, _⟩ => exact absurd rfl hb

/-- An update whose two start components are a row and a column of the matrix lands at that entry. -/
private theorem resultIdx_of_start (idx : IVec S160000x2 32) (e : Fin 160000) (a b : Fin 10240)
    (h0 : sd.start (ix1 e) idx (0 : Fin 2) = (a.val : Int)) (h1 : sd.start (ix1 e) idx (1 : Fin 2) = (b.val : Int)) :
    sd.resultIdx? (ix1 e) idx = some (ix2 a b) := by
  have H : ∀ x : Fin S10240x10240.rank, 0 ≤ sd.start (ix1 e) idx x + (sd.window (ix1 e) x : Int)
      ∧ sd.start (ix1 e) idx x + (sd.window (ix1 e) x : Int) < (S10240x10240.size x : Int) := by
    intro x
    rw [window_eq]
    match x with
    | ⟨0, _⟩ =>
      show 0 ≤ sd.start (ix1 e) idx (0 : Fin 2) + ((0 : Nat) : Int) ∧ sd.start (ix1 e) idx (0 : Fin 2) + ((0 : Nat) : Int) < ((10240 : Nat) : Int)
      rw [h0]; have := a.isLt; omega
    | ⟨1, _⟩ =>
      show 0 ≤ sd.start (ix1 e) idx (1 : Fin 2) + ((0 : Nat) : Int) ∧ sd.start (ix1 e) idx (1 : Fin 2) + ((0 : Nat) : Int) < ((10240 : Nat) : Int)
      rw [h1]; have := b.isLt; omega
  unfold ScatterDims.resultIdx?
  rw [dif_pos H]
  congr 1
  funext x
  match x with
  | ⟨0, _⟩ =>
    apply Fin.ext
    show (sd.start (ix1 e) idx (0 : Fin 2) + (sd.window (ix1 e) (0 : Fin 2) : Int)).toNat = a.val
    rw [h0, window_eq]; simp
  | ⟨1, _⟩ =>
    apply Fin.ext
    show (sd.start (ix1 e) idx (1 : Fin 2) + (sd.window (ix1 e) (1 : Fin 2) : Int)).toNat = b.val
    rw [h1, window_eq]; simp

open Idealize.ShloMosaic.StableHlo.Predicate in
/-- An edge between two node numbers lands at (destination, source). -/
private theorem resultIdx_eq (dst src : IVec S160000 32) (e : Fin 160000)
    (hd : (dst (ix1 e)).toNat < 10000) (hs : (src (ix1 e)).toNat < 10000) :
    sd.resultIdx? (ix1 e) (KHost.pairs dst src)
      = some (ix2 (⟨(dst (ix1 e)).toNat, by omega⟩ : Fin 10240) (⟨(src (ix1 e)).toNat, by omega⟩ : Fin 10240)) := by
  apply resultIdx_of_start
  · rw [start_0, pairs_0, wrap_clip_apply dst (ix1 e) hd]
    exact toInt_eq_toNat_of_lt (by omega)
  · rw [start_1, pairs_1, wrap_clip_apply src (ix1 e) hs]
    exact toInt_eq_toNat_of_lt (by omega)

/-! ## The adjacency matrix at an entry -/

/-- Two matrix entries are one exactly when their rows and their columns are. -/
private theorem some_ix2_eq_iff {n m : Nat} (a d : Fin n) (b s : Fin m) :
    (some (ix2 a b) = some (ix2 d s)) ↔ a.val = d.val ∧ b.val = s.val := by
  constructor
  · intro h
    have h' := Option.some.inj h
    exact ⟨congrArg Fin.val (congrFun h' 0), congrArg Fin.val (congrFun h' 1)⟩
  · rintro ⟨h1, h2⟩
    rw [Fin.ext h1, Fin.ext h2]

/-- Edge numbers and the edge vectors' indices are the same things. -/
private def edgeEquiv : Fin 160000 ≃ S160000.Idx where
  toFun e := ix1 e
  invFun j := j 0
  left_inv _ := rfl
  right_inv j := (eq_ix1 j).symm

/-- Entry (d, s) of the adjacency matrix: the weights of the edges from s into d, summed. -/
theorem adj_apply (dst src : IVec S160000 32) (w : S160000.Idx → EReal)
    (hs : ∀ e, (src e).toNat < 10000) (hd : ∀ e, (dst e).toNat < 10000) (d s : Fin 10240) :
    KHost.adj dst src w (ix2 d s)
      = ∑ e ∈ Finset.univ.filter (fun e : Fin 160000 => (dst (ix1 e)).toNat = d.val ∧ (src (ix1 e)).toNat = s.val), w (ix1 e) := by
  show broadcastInDim S10240x10240 ![] bcast_S_S10240x10240 (constant (F := Ideal) S_ .f32 0x00000000#32) (ix2 d s)
      + ∑ j ∈ Finset.univ.filter (fun j => sd.resultIdx? j (KHost.pairs dst src) = some (ix2 d s)), w j = _
  rw [Idealize.ShloMosaic.StableHlo.Predicate.bcast_scalar bcast_S_S10240x10240 h_S_, constant_apply,
    Idealize.ShloMosaic.Ideal.ofBits_zero_f32, zero_add]
  refine (Finset.sum_equiv edgeEquiv (fun e => ?_) (fun e _ => rfl)).symm
  simp only [Finset.mem_filter, Finset.mem_univ, true_and]
  show _ ↔ sd.resultIdx? (ix1 e) (KHost.pairs dst src) = some (ix2 d s)
  rw [resultIdx_eq dst src e (hd _) (hs _), some_ix2_eq_iff]

/-- The padded feature matrix at (r, k): the feature matrix's entry on a row below 10000, zero on a padding row. -/
theorem padded_apply (v : S10000x1024.Idx → EReal) (r : Fin 10240) (k : Fin 1024) :
    pad S10240x1024 ![0, 0] ![240, 0] ![0, 0] v (sitofp (F := Ideal) .f32 (constantI S_ 32 0#32))
        pads_S10000x1024_S10240x1024_02400_000 h_S_ (ix2 r k)
      = if h : r.val < 10000 then v (ix2 ⟨r.val, h⟩ k) else 0 := by
  by_cases h : r.val < 10000
  · -- a row of the feature matrix: no low padding and no interior padding, so the coordinates are kept
    rw [dif_pos h]
    refine pad_apply_of_inside _ _ _ v _ _ _ _ _ (fun a => ?_)
    match a with
    | ⟨0, _⟩ => show r.val = 0 + r.val * (0 + 1); omega
    | ⟨1, _⟩ => show k.val = 0 + k.val * (0 + 1); omega
  · -- a row at or past 10000 is outside the feature matrix on the row axis; the padding value is the integer 0 converted
    rw [dif_neg h]
    refine (pad_apply_of_not_inside _ _ _ v _ _ _ _ (0 : Fin 2) (fun hh => ?_)).trans ?_
    · have h3 : (r.val - 0) / (0 + 1) < 10000 := hh.2.2
      simp only [Nat.sub_zero, Nat.zero_add, Nat.div_one] at h3
      exact h h3
    · exact sitofp_zero (φ := .f32)

/-- The kept rows of the final slice are the rows themselves. -/
theorem sliced_apply (x : S10240x512.Idx → EReal) (i : S10000x512.Idx) :
    extractStridedSlice S10000x512 ![0, 0] x slices_S10240x512_S10000x512_0_0 i
      = x (ix2 ⟨(i 0).val, Nat.lt_trans (idx2_lt0 i) (by decide)⟩ ⟨(i 1).val, idx2_lt1 i⟩) := by
  -- both offsets are zero, so each coordinate of the source is the slice's own
  refine extractStridedSlice_apply _ _ _ _ _ (fun ax => ?_)
  match ax with
  | ⟨0, _⟩ => exact (Nat.zero_add _).symm
  | ⟨1, _⟩ => exact (Nat.zero_add _).symm

end Cert.KernelIdeal.KIndex

end
-- ==== Proof.Spec.lean ====
/-
  Graph convolution, as one function of the five argument arrays.

  support = v · W is the [10000 × 512] matrix of node features after the linear layer. The result at node d and
  feature j is relu of the sum, over the edges e whose destination is d, of  w e · support (source of e) j.
  Both programs compute this when every edge's two index words name a node (a number below 10000).

  The algebra that joins the two arrangements is `fiber_sum_mul`: summing first, per source node s, the weights of
  the edges from s into d, then multiplying by row s of the support and summing over s, gives the same as summing
  w e · support (source e) over the edges into d. Multiplication distributes over a finite sum of real numbers; on
  the extended reals it need not, which is why the statement asks that every term be real.
-/
import Idealize.ShloMosaic.Lib.ValueIdx
import Idealize.ShloMosaic.PureOps.Ideal.Laws

noncomputable section

open scoped BigOperators

namespace GraphConv

open Idealize.ShloMosaic Idealize.ShloMosaic.ValueIdx

/-- The node an index word names: its value, when that is below 10000 (the remainder only keeps the function total). -/
def node (b : BitVec 32) : Fin 10000 := ⟨b.toNat % 10000, Nat.mod_lt _ (by decide)⟩

theorem node_val {b : BitVec 32} (h : b.toNat < 10000) : (node b).val = b.toNat := Nat.mod_eq_of_lt h

/-- Row r, column j of v · W. -/
def support (v : (⟨2, ![10000, 1024]⟩ : Shape).Idx → EReal) (W : (⟨2, ![1024, 512]⟩ : Shape).Idx → EReal)
    (r : Fin 10000) (j : Fin 512) : EReal :=
  ∑ k : Fin 1024, v (ix2 r k) * W (ix2 k j)

/-- The sum over the edges into node d of weight × support row of the edge's source, at feature j. -/
def edgeSum (v : (⟨2, ![10000, 1024]⟩ : Shape).Idx → EReal) (W : (⟨2, ![1024, 512]⟩ : Shape).Idx → EReal)
    (src dst : (⟨1, ![160000]⟩ : Shape).Idx → BitVec 32) (w : (⟨1, ![160000]⟩ : Shape).Idx → EReal)
    (d : Fin 10000) (j : Fin 512) : EReal :=
  ∑ e ∈ Finset.univ.filter (fun e : Fin 160000 => node (dst (ix1 e)) = d), w (ix1 e) * support v W (node (src (ix1 e))) j

/-- The layer's output: relu of the edge sum. -/
def G (v : (⟨2, ![10000, 1024]⟩ : Shape).Idx → EReal) (W : (⟨2, ![1024, 512]⟩ : Shape).Idx → EReal)
    (src dst : (⟨1, ![160000]⟩ : Shape).Idx → BitVec 32) (w : (⟨1, ![160000]⟩ : Shape).Idx → EReal) :
    (⟨2, ![10000, 512]⟩ : Shape).Idx → EReal :=
  fun i => max (edgeSum v W src dst w ⟨(i 0).val, idx2_lt0 i⟩ ⟨(i 1).val, idx2_lt1 i⟩) 0

/-- A finite sum of real numbers, taken in the extended reals, is the real sum. -/
theorem coe_sum {ι : Type} (s : Finset ι) (f : ι → ℝ) : ∑ i ∈ s, (f i : EReal) = ((∑ i ∈ s, f i : ℝ) : EReal) := by
  classical
  refine Finset.induction_on s ?_ ?_
  · simp only [Finset.sum_empty, EReal.coe_zero]
  · intro a t ha ih
    rw [Finset.sum_insert ha, Finset.sum_insert ha, ih, EReal.coe_add]

/-- A finite sum of products of real numbers is a real number. -/
theorem sum_mul_real {ι : Type} (s : Finset ι) (f g : ι → EReal) (hf : ∀ i, ∃ r : ℝ, f i = (r : EReal))
    (hg : ∀ i, ∃ r : ℝ, g i = (r : EReal)) : ∃ r : ℝ, ∑ i ∈ s, f i * g i = (r : EReal) := by
  choose fr hfr using hf
  choose gr hgr using hg
  refine ⟨∑ i ∈ s, fr i * gr i, ?_⟩
  rw [← coe_sum]
  refine Finset.sum_congr rfl fun i _ => ?_
  rw [hfr, hgr, EReal.coe_mul]

/-- Grouping the edges into d by their source: per source s the weights summed, times S s, summed over s, is the sum
    over the edges into d of weight × S (source). All terms real. -/
theorem fiber_sum_mul {E N : Type} [Fintype E] [Fintype N] [DecidableEq N] (p : E → Prop) [DecidablePred p]
    (σ : E → N) (a : E → EReal) (S : N → EReal)
    (ha : ∀ e, ∃ r : ℝ, a e = (r : EReal)) (hS : ∀ s, ∃ r : ℝ, S s = (r : EReal)) :
    ∑ s : N, (∑ e ∈ Finset.univ.filter (fun e => p e ∧ σ e = s), a e) * S s
      = ∑ e ∈ Finset.univ.filter p, a e * S (σ e) := by
  classical
  choose ar har using ha
  choose Sr hSr using hS
  -- the same identity over the reals: swap the two sums; for one edge, the sum over s keeps the one term s = σ e
  have key : ∑ s : N, ∑ e ∈ Finset.univ.filter (fun e => p e ∧ σ e = s), ar e * Sr s
      = ∑ e ∈ Finset.univ.filter p, ar e * Sr (σ e) := by
    simp only [Finset.sum_filter]
    rw [Finset.sum_comm]
    refine Finset.sum_congr rfl fun e _ => ?_
    by_cases hp : p e
    · simp only [hp, true_and, if_true]
      rw [Finset.sum_ite_eq]
      simp only [Finset.mem_univ, if_true]
    · simp only [hp, false_and, if_false, Finset.sum_const_zero]
  have hl : ∀ s : N, (∑ e ∈ Finset.univ.filter (fun e => p e ∧ σ e = s), a e) * S s
      = ((∑ e ∈ Finset.univ.filter (fun e => p e ∧ σ e = s), ar e * Sr s : ℝ) : EReal) := by
    intro s
    rw [show (∑ e ∈ Finset.univ.filter (fun e => p e ∧ σ e = s), a e)
        = ∑ e ∈ Finset.univ.filter (fun e => p e ∧ σ e = s), (ar e : EReal) from
      Finset.sum_congr rfl fun e _ => har e, coe_sum, hSr, ← EReal.coe_mul, Finset.sum_mul]
  have hr : ∑ e ∈ Finset.univ.filter p, a e * S (σ e) = ((∑ e ∈ Finset.univ.filter p, ar e * Sr (σ e) : ℝ) : EReal) := by
    rw [← coe_sum]
    refine Finset.sum_congr rfl fun e _ => ?_
    rw [har, hSr, EReal.coe_mul]
  rw [Finset.sum_congr rfl fun s _ => hl s, coe_sum, hr, key]

end GraphConv

end
-- ==== Proof.PreFacts.lean ====
/-
  The precondition, read as facts about the inputs.

  The precondition is one bit: the conjunction of five "all" reductions. Three say that every entry of a float
  input has absolute value below +∞, i.e. is a real number; two say that every entry of an index vector is at
  least 0 and below 10000 as a signed word. When the bit is 1 every one of those holds at every entry.
-/
import proofs.«403788_j20452634263994_3_alg».proof.Pre_finite_inputs
import proofs.«403788_j20452634263994_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Idealize.ShloMosaic.ValueIdx Cert.Pre_finite_inputs

/-- What the precondition says of the five inputs: the three float inputs are real-valued, and both index vectors
    hold node numbers. -/
structure Holds (v : S10000x1024.Idx → EReal) (W : S1024x512.Idx → EReal) (src dst : S160000.Idx → BitVec 32)
    (w : S160000.Idx → EReal) : Prop where
  v_real : ∀ i, ∃ r : ℝ, v i = (r : EReal)
  W_real : ∀ i, ∃ r : ℝ, W i = (r : EReal)
  w_real : ∀ i, ∃ r : ℝ, w i = (r : EReal)
  src_node : ∀ e, (src e).toNat < 10000
  dst_node : ∀ e, (dst e).toNat < 10000

/-- The scalar shape has exactly one index. -/
private instance : Subsingleton S_.Idx := ⟨fun a b => funext fun d => d.elim0⟩

/-- An extended real whose absolute value max x (−x) lies strictly below +∞ is neither +∞ nor −∞: it is a real number.
    The pattern 0x7F800000 (exponent all ones, significand zero, sign clear) denotes +∞. -/
private theorem real_of_abs_lt (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  simp only [Ideal.cmp, StableHlo.Predicate.ofBool_eq_one_iff, decide_eq_true_eq, max_lt_iff] at h
  induction x using EReal.rec with
  | bot => simp at h
  | coe r => exact ⟨r, rfl⟩
  | top => simp at h

/-- A 32-bit word that is at least 0 and below 10000 as a signed number has its sign bit clear, so its unsigned
    value is the same number, below 10000. -/
private theorem node_of_cmp (a : BitVec 32)
    (h0 : IntOp.cmpi .sge a 0#32 = 1#1) (h1 : IntOp.cmpi .slt a 10000#32 = 1#1) : a.toNat < 10000 := by
  rw [IntOp.cmpi_sge] at h0; rw [IntOp.cmpi_slt] at h1
  have e0 : (0#32 : BitVec 32).toInt = 0 := by decide
  have e1 : (10000#32 : BitVec 32).toInt = 10000 := by decide
  rw [e0] at h0; rw [e1] at h1
  rw [BitVec.toInt_eq_toNat_cond] at h0 h1
  have := a.isLt
  split at h0 <;> omega

/-- The printed precondition at the ideal values, all ones, gives the facts. -/
theorem of_pre (v : FVec Ideal S10000x1024 .f32) (W : FVec Ideal S1024x512 .f32) (src dst : IVec S160000 32)
    (w : FVec Ideal S160000 .f32)
    (h : Cert.Pre_finite_inputs.fn (F := Ideal) v W src dst w = fun _ => 1#1) : Holds v W src dst w := by
  -- the one bit, read at the one index, is a conjunction of five reductions by "and"
  have h1 := congrFun h ValueIdx.ix0
  dsimp only [fn, fn_part1] at h1
  simp only [andi, IntOp.andi_eq_one] at h1
  obtain ⟨⟨⟨⟨hv, hW⟩, hw⟩, hs⟩, hd⟩ := h1
  -- a reduction by "and" over every axis that came out 1 met a 1 at every entry
  have av := Host.reduce_andi_all _ _ _ _ _ hv
  have aW := Host.reduce_andi_all _ _ _ _ _ hW
  have aw := Host.reduce_andi_all _ _ _ _ _ hw
  have asrc := Host.reduce_andi_all _ _ _ _ _ hs
  have adst := Host.reduce_andi_all _ _ _ _ _ hd
  refine ⟨fun i => ?_, fun i => ?_, fun i => ?_, fun e => ?_, fun e => ?_⟩
  · have := av i
    simp only [cmpf, Host.absf, StableHlo.Predicate.bcast_scalar _ Facts.h_S_, constant] at this
    exact real_of_abs_lt _ this
  · have := aW i
    simp only [cmpf, Host.absf, StableHlo.Predicate.bcast_scalar _ Facts.h_S_, constant] at this
    exact real_of_abs_lt _ this
  · have := aw i
    simp only [cmpf, Host.absf, StableHlo.Predicate.bcast_scalar _ Facts.h_S_, constant] at this
    exact real_of_abs_lt _ this
  · have := asrc e
    simp only [andi, cmpi, IntOp.andi_eq_one, StableHlo.Predicate.bcast_scalar _ Facts.h_S_, constantI] at this
    exact node_of_cmp _ this.1 this.2
  · have := adst e
    simp only [andi, cmpi, IntOp.andi_eq_one, StableHlo.Predicate.bcast_scalar _ Facts.h_S_, constantI] at this
    exact node_of_cmp _ this.1 this.2

end Cert.PreFacts

end
-- ==== Proof.KValue.lean ====
/-
  The kernel program's result is the layer's output function of its five inputs.

  Read back through both calls and the host stretches, the result at (d, j), d below 10000, is
  relu (∑ s, A (d, s) · P (s, j))  over the 10240 padded rows s, where A (d, s) is the sum of the weights of the
  edges from s into d and P (s, j) is row s of (padded v) · W: the support row for s below 10000, zero for a
  padding row. No edge has a padding row as its source, so grouping the edges into d by their source
  (`GraphConv.fiber_sum_mul`, over real numbers: this is where the inputs' finiteness is used) gives the sum over
  the edges into d of weight · support (source), the reference's arrangement.
-/
import proofs.«403788_j20452634263994_3_alg».proof.Proof.KHost
import proofs.«403788_j20452634263994_3_alg».proof.Proof.KIndex
import proofs.«403788_j20452634263994_3_alg».proof.Proof.Reg0
import proofs.«403788_j20452634263994_3_alg».proof.Proof.Reg1
import proofs.«403788_j20452634263994_3_alg».proof.Proof.Spec
import proofs.«403788_j20452634263994_3_alg».proof.Proof.PreFacts

set_option maxRecDepth 16384

noncomputable section

open scoped BigOperators

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- Row s of (padded v) · W at column j: the support row below 10000, zero on a padding row. -/
def paddedSupport (v : S10000x1024.Idx → EReal) (W : S1024x512.Idx → EReal) (j : Fin 512) (s : Fin 10240) : EReal :=
  if h : s.val < 10000 then GraphConv.support v W ⟨s.val, h⟩ j else 0

/-- The first call's output, read through the host's padding and conversion. -/
theorem support_apply (c : Dev nD) (s : Fin 10240) (j : Fin 512) :
    Reg0.out (V3 m ρ) c (ix2 s j) = paddedSupport (KHost.av m c) (KHost.aW m c) j s := by
  rw [Reg0.arr, KHost.first_lhs, KHost.first_rhs]
  unfold paddedSupport GraphConv.support
  by_cases h : s.val < 10000
  · rw [dif_pos h]
    refine Finset.sum_congr rfl fun k _ => ?_
    rw [KIndex.padded_apply, dif_pos h]
    rfl
  · rw [dif_neg h]
    refine Finset.sum_eq_zero fun k _ => ?_
    rw [KIndex.padded_apply, dif_neg h, zero_mul]

/-- A padded support entry is a real number when v and W are real-valued. -/
theorem paddedSupport_real (v : S10000x1024.Idx → EReal) (W : S1024x512.Idx → EReal)
    (hv : ∀ i, ∃ r : ℝ, v i = (r : EReal)) (hW : ∀ i, ∃ r : ℝ, W i = (r : EReal)) (j : Fin 512) (s : Fin 10240) :
    ∃ r : ℝ, paddedSupport v W j s = (r : EReal) := by
  unfold paddedSupport
  by_cases h : s.val < 10000
  · rw [dif_pos h]
    exact GraphConv.sum_mul_real _ _ _ (fun k => hv _) (fun k => hW _)
  · rw [dif_neg h]
    exact ⟨0, EReal.coe_zero.symm⟩

/-- THE KERNEL'S VALUE. -/
theorem value (c : Dev nD)
    (H : Cert.PreFacts.Holds (KHost.av m c) (KHost.aW m c) (KHost.asrc m c) (KHost.adst m c) (KHost.aw m c)) :
    KHost.result m ρ c
      = GraphConv.G (KHost.av m c) (KHost.aW m c) (KHost.asrc m c) (KHost.adst m c) (KHost.aw m c) := by
  funext i
  rw [KHost.result_eq, KIndex.sliced_apply, Reg1.arr, KHost.second_lhs, KHost.second_rhs]
  unfold GraphConv.G GraphConv.edgeSum
  refine congrArg (fun x => max x 0) ?_
  -- the source node of an edge, as a padded row
  let σ : Fin 160000 → Fin 10240 := fun e =>
    ⟨(KHost.asrc m c (ix1 e)).toNat, Nat.lt_trans (H.src_node _) (by decide)⟩
  have hterm : ∀ s : Fin 10240,
      KHost.adj (KHost.adst m c) (KHost.asrc m c) (KHost.aw m c) (ix2 ⟨(i 0).val, Nat.lt_trans (idx2_lt0 i) (by decide)⟩ s)
        * Reg0.out (V3 m ρ) c (ix2 s ⟨(i 1).val, idx2_lt1 i⟩)
      = (∑ e ∈ Finset.univ.filter (fun e : Fin 160000 => (KHost.adst m c (ix1 e)).toNat = (i 0).val ∧ σ e = s),
            KHost.aw m c (ix1 e))
          * paddedSupport (KHost.av m c) (KHost.aW m c) ⟨(i 1).val, idx2_lt1 i⟩ s := by
    intro s
    rw [KIndex.adj_apply _ _ _ H.src_node H.dst_node, support_apply]
    have hf : ∀ e : Fin 160000,
        ((KHost.adst m c (ix1 e)).toNat = (i 0).val ∧ (KHost.asrc m c (ix1 e)).toNat = s.val)
          ↔ ((KHost.adst m c (ix1 e)).toNat = (i 0).val ∧ σ e = s) :=
      fun e => and_congr Iff.rfl ⟨fun h => Fin.ext h, fun h => congrArg Fin.val h⟩
    have hsum := Finset.sum_congr
      (Finset.filter_congr fun e (_ : e ∈ (Finset.univ : Finset (Fin 160000))) => hf e)
      (fun e _ => (rfl : KHost.aw m c (ix1 e) = KHost.aw m c (ix1 e)))
    exact congrArg (fun x : EReal => x * paddedSupport (KHost.av m c) (KHost.aW m c) ⟨(i 1).val, idx2_lt1 i⟩ s) hsum
  refine (Finset.sum_congr rfl fun s _ => hterm s).trans ?_
  rw [GraphConv.fiber_sum_mul (fun e : Fin 160000 => (KHost.adst m c (ix1 e)).toNat = (i 0).val) σ
    (fun e => KHost.aw m c (ix1 e)) (paddedSupport (KHost.av m c) (KHost.aW m c) ⟨(i 1).val, idx2_lt1 i⟩)
    (fun e => H.w_real _) (paddedSupport_real _ _ H.v_real H.W_real _)]
  refine Finset.sum_congr (Finset.filter_congr fun e _ => ?_) fun e _ => ?_
  · rw [Fin.ext_iff, GraphConv.node_val (H.dst_node _)]
  · have hn : GraphConv.node (KHost.asrc m c (ix1 e)) = ⟨(σ e).val, H.src_node _⟩ :=
      Fin.ext (GraphConv.node_val (H.src_node _))
    unfold paddedSupport
    rw [dif_pos (H.src_node (ix1 e)), hn]

end Cert.KernelIdeal.KValue

end
-- ==== Proof.RefRead.lean ====
/-
  The reference program's result, read at an index, is the layer's output function.

  The reference multiplies v by W on the host, gathers one support row per edge (the source index, with a negative
  index wrapped by adding 10000 and the start clamped into the table), scales the row by the edge's weight, and adds
  each scaled row into the destination's row of a zero [10000 × 512] array; an update whose destination is outside
  the array is dropped. Then relu. When every index word is a node number neither the wrap, the clamp nor the drop
  is met: entry (d, j) is relu of the sum over the edges into d of  support (source) j · weight.
-/
import proofs.«403788_j20452634263994_3_alg».proof.Proof.Gen.ReferenceIdeal.Read
import proofs.«403788_j20452634263994_3_alg».proof.Proof.Spec
import Idealize.ShloMosaic.Lib.StableHlo.Predicate

set_option maxRecDepth 16384

noncomputable section

open scoped BigOperators

namespace Cert.ReferenceIdeal.RefRead

open Idealize.ShloMosaic Idealize.ShloMosaic.TcCoe Idealize.ShloMosaic.ValueIdx Idealize.SL.Sem
open Cert.ReferenceIdeal Cert.ReferenceIdeal.Gen Cert.ReferenceIdeal.Read

private abbrev GD := gather_S10000x512_S160000x1_S160000x512_1_0_n_n_0_1_1512
private abbrev SD := scatter_S10000x512_S160000x1_S160000x512_1_0_0_1

/-- The start-indices index the gather reads for result row e. -/
private theorem gather_siIdx (e : Fin 160000) (j : Fin 512)
    (c : Fin GD.startIndexMap.length) :
    GD.siIdx (ix2 e j) c = ix2 e (0 : Fin 1) := by
  funext b; refine Fin.ext ?_
  match b with
  | ⟨0, _⟩ => rfl
  | ⟨1, _⟩ =>
    have : c.val < 1 := c.isLt
    show c.val = 0
    omega

private theorem gather_read {α : Type} (x : S10000x512.Idx → α) (idx : IVec S160000x1 32) (e : Fin 160000) (j : Fin 512) :
    Host.gather GD x idx (ix2 e j)
      = x (ix2 ⟨min (idx (ix2 e (0 : Fin 1))).toInt.toNat 9999, by omega⟩ j) := by
  unfold Host.gather
  refine congrArg x ?_
  funext a; refine Fin.ext ?_
  match a with
  | ⟨0, _⟩ =>
    show GD.start (ix2 e j) idx 0 + GD.batchCoord (ix2 e j) 0 + GD.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl), gather_siIdx]
    rfl
  | ⟨1, _⟩ =>
    show GD.start (ix2 e j) idx 1 + GD.batchCoord (ix2 e j) 1 + GD.offCoord (ix2 e j) 1 = j.val
    rw [GatherDims.batchCoord_eq_zero _ _ _ List.not_mem_nil]
    unfold GatherDims.start
    rw [dif_neg (show ¬ (1 : Fin 2) ∈ GD.startIndexMap by decide)]
    unfold GatherDims.offCoord
    rw [dif_pos (show (1 : Fin 2) ∈ GD.sKept by decide)]
    simp only [Nat.zero_add]
    rfl

private theorem scatter_siIdx (e : Fin 160000) (j : Fin 512)
    (c : Fin SD.scatterDimsToOperandDims.length) :
    SD.siIdx (ix2 e j) c = ix2 e (0 : Fin 1) := by
  funext b; refine Fin.ext ?_
  match b with
  | ⟨0, _⟩ => rfl
  | ⟨1, _⟩ =>
    have : c.val < 1 := c.isLt
    show c.val = 0
    omega

private theorem scatter_start0 (idx : IVec S160000x1 32) (e : Fin 160000) (j : Fin 512) :
    SD.start (ix2 e j) idx 0 = (idx (ix2 e (0 : Fin 1))).toInt := by
  unfold ScatterDims.start
  rw [dif_pos (show (0 : Fin 2) ∈ SD.scatterDimsToOperandDims from List.mem_singleton.mpr rfl), scatter_siIdx]

private theorem scatter_start1 (idx : IVec S160000x1 32) (e : Fin 160000) (j : Fin 512) :
    SD.start (ix2 e j) idx 1 = 0 := by
  unfold ScatterDims.start
  rw [dif_neg (show ¬ (1 : Fin 2) ∈ SD.scatterDimsToOperandDims by decide)]

private theorem scatter_window0 (e : Fin 160000) (j : Fin 512) :
    SD.window (ix2 e j) 0 = 0 := by
  unfold ScatterDims.window
  rw [dif_neg (show ¬ (0 : Fin 2) ∈ SD.sKept by decide)]

private theorem scatter_window1 (e : Fin 160000) (j : Fin 512) :
    SD.window (ix2 e j) 1 = j.val := by
  unfold ScatterDims.window
  rw [dif_pos (show (1 : Fin 2) ∈ SD.sKept by decide)]
  rfl

/-- An update whose index word is a node number lands in that node's row, at the update's own column. -/
private theorem scatter_result (idx : IVec S160000x1 32) (e : Fin 160000) (j : Fin 512)
    (h : (idx (ix2 e (0 : Fin 1))).toNat < 10000) :
    SD.resultIdx? (ix2 e j) idx = some (ix2 ⟨(idx (ix2 e (0 : Fin 1))).toNat, h⟩ j) := by
  have hi : (idx (ix2 e (0 : Fin 1))).toInt = ((idx (ix2 e (0 : Fin 1))).toNat : Int) :=
    StableHlo.Predicate.toInt_eq_toNat_of_lt (by omega)
  have hall : ∀ a : Fin 2, 0 ≤ SD.start (ix2 e j) idx a + SD.window (ix2 e j) a ∧
      SD.start (ix2 e j) idx a + SD.window (ix2 e j) a < S10000x512.size a := by
    intro a
    match a with
    | ⟨0, _⟩ =>
      show 0 ≤ SD.start (ix2 e j) idx 0 + SD.window (ix2 e j) 0 ∧ SD.start (ix2 e j) idx 0 + SD.window (ix2 e j) 0 < (10000 : Nat)
      rw [scatter_start0, scatter_window0, hi]; omega
    | ⟨1, _⟩ =>
      show 0 ≤ SD.start (ix2 e j) idx 1 + SD.window (ix2 e j) 1 ∧ SD.start (ix2 e j) idx 1 + SD.window (ix2 e j) 1 < (512 : Nat)
      rw [scatter_start1, scatter_window1]; have := j.isLt; omega
  unfold ScatterDims.resultIdx?
  rw [dif_pos hall]
  refine congrArg some ?_
  funext a; refine Fin.ext ?_
  match a with
  | ⟨0, _⟩ =>
    show (SD.start (ix2 e j) idx 0 + SD.window (ix2 e j) 0).toNat = (idx (ix2 e (0 : Fin 1))).toNat
    rw [scatter_start0, scatter_window0, hi]; omega
  | ⟨1, _⟩ =>
    show (SD.start (ix2 e j) idx 1 + SD.window (ix2 e j) 1).toNat = j.val
    rw [scatter_start1, scatter_window1]; omega

private theorem ix2_inj {n0 n1 : Nat} (a a' : Fin n0) (b b' : Fin n1) :
    (ix2 a b = ix2 a' b') ↔ (a = a' ∧ b = b') := by
  constructor
  · intro h; exact ⟨congrFun h 0, congrFun h 1⟩
  · rintro ⟨rfl, rfl⟩; rfl

private theorem gather_read_node {α : Type} (x : S10000x512.Idx → α) (idx : IVec S160000x1 32) (e : Fin 160000) (j : Fin 512)
    (n : Fin 10000) (h : (idx (ix2 e (0 : Fin 1))).toNat = n.val) :
    Host.gather GD x idx (ix2 e j) = x (ix2 n j) := by
  rw [gather_read]
  refine congrArg x (congrArg (fun r => ix2 r j) (Fin.ext ?_))
  show min (idx (ix2 e (0 : Fin 1))).toInt.toNat 9999 = n.val
  have := n.isLt
  rw [StableHlo.Predicate.toInt_eq_toNat_of_lt (by omega), Int.toNat_natCast]; omega

private theorem scatter_result_node (idx : IVec S160000x1 32) (e : Fin 160000) (j : Fin 512)
    (n : Fin 10000) (h : (idx (ix2 e (0 : Fin 1))).toNat = n.val) :
    SD.resultIdx? (ix2 e j) idx = some (ix2 n j) := by
  rw [scatter_result idx e j (by have := n.isLt; omega)]
  exact congrArg some (congrArg (fun r => ix2 r j) (Fin.ext h))

/-- The weight matrix reads the edge's weight in every column. -/
private theorem v9_read (w : S160000.Idx → EReal) (e : Fin 160000) (j : Fin 512) :
    val_main_v9 (F := Ideal) w (ix2 e j) = w (ix1 e) := by
  rw [val_main_v9_apply, val_main_v8_apply]
  refine congrArg w ?_
  funext a; match a with | ⟨0, _⟩ => rfl

/-- The destination column reads the destination word. -/
private theorem v12_read (dst : S160000.Idx → BitVec 32) (e : Fin 160000) :
    val_main_v12 (F := Ideal) dst (ix2 e (0 : Fin 1)) = dst (ix1 e) := by
  rw [val_main_v12_apply]
  refine congrArg dst ?_
  funext a; match a with | ⟨0, _⟩ => rfl

/-- The wrapped source column reads the source word itself when that is a node number. -/
private theorem v6_read (src : S160000.Idx → BitVec 32) (e : Fin 160000) (h : (src (ix1 e)).toNat < 10000) :
    val_main_v6 (F := Ideal) src (ix2 e (0 : Fin 1)) = src (ix1 e) := by
  have hi : idx_main_v6 (ix2 e (0 : Fin 1)) = ix1 e := by funext a; match a with | ⟨0, _⟩ => rfl
  rw [val_main_v6_apply, hi, val_main_v5_apply, val_main_v2_apply, val_main_v1_apply, val_main_c_apply]
  have hc : IntOp.cmpi .slt (src (ix1 e)) 0#32 = 0#1 := by
    apply eq_zero_of_ne_one
    rw [StableHlo.Predicate.slt_iff_toNat (by omega) (by decide)]
    show ¬ (src (ix1 e)).toNat < 0
    omega
  rw [hc, select_zero]

/-- The gathered row is the support row of the edge's source node. -/
private theorem v7_read (v : S10000x1024.Idx → EReal) (W : S1024x512.Idx → EReal) (src : S160000.Idx → BitVec 32)
    (e : Fin 160000) (j : Fin 512) (h : (src (ix1 e)).toNat < 10000) :
    val_main_v7 (F := Ideal) v W src (ix2 e j) = GraphConv.support v W (GraphConv.node (src (ix1 e))) j := by
  unfold val_main_v7
  rw [gather_read_node _ _ e j (GraphConv.node (src (ix1 e))) (by rw [v6_read src e h, GraphConv.node_val h]),
    val_main_v0_apply]
  unfold GraphConv.support
  refine Finset.sum_congr rfl fun k _ => ?_
  have hl : lidx_main_v0 (ix2 (GraphConv.node (src (ix1 e))) j) k = ix2 (GraphConv.node (src (ix1 e))) k :=
    funext fun a => Fin.ext (by match a with | ⟨0, _⟩ => rfl | ⟨1, _⟩ => rfl)
  have hr : ridx_main_v0 (ix2 (GraphConv.node (src (ix1 e))) j) k = ix2 k j :=
    funext fun a => Fin.ext (by match a with | ⟨0, _⟩ => rfl | ⟨1, _⟩ => rfl)
  rw [hl, hr]

/-- The scatter's result at (d, j) is the sum over the edges into d. -/
private theorem v13_read (v : S10000x1024.Idx → EReal) (W : S1024x512.Idx → EReal) (src dst : S160000.Idx → BitVec 32)
    (w : S160000.Idx → EReal) (hs : ∀ e, (src e).toNat < 10000) (hd : ∀ e, (dst e).toNat < 10000)
    (d : Fin 10000) (j : Fin 512) :
    val_main_v13 (F := Ideal) v W src dst w (ix2 d j) = GraphConv.edgeSum v W src dst w d j := by
  unfold val_main_v13 Host.scatterAdd
  rw [Ideal.hostScatterAdd_def]
  unfold Ideal.hostScatterAdd
  rw [val_main_v11_apply, val_main_cst_apply, Ideal.ofBits_def, Ideal.ofBits_zero_f32, zero_add]
  rw [Finset.sum_filter, sum_idx2]
  unfold GraphConv.edgeSum
  rw [Finset.sum_filter]
  refine Finset.sum_congr rfl fun e _ => ?_
  have hcond : ∀ j' : Fin 512, (SD.resultIdx? (ix2 e j') (val_main_v12 (F := Ideal) dst) = some (ix2 d j))
      ↔ (GraphConv.node (dst (ix1 e)) = d ∧ j' = j) := by
    intro j'
    rw [scatter_result_node _ e j' (GraphConv.node (dst (ix1 e))) (by rw [v12_read, GraphConv.node_val (hd _)]),
      Option.some_inj, ix2_inj]
  simp only [hcond]
  by_cases hA : GraphConv.node (dst (ix1 e)) = d
  · rw [if_pos hA]
    simp only [hA, true_and, Finset.sum_ite_eq', Finset.mem_univ, if_true]
    rw [val_main_v10_apply, Ideal.mulf_def, v7_read v W src e j (hs _), v9_read, mul_comm]
  · rw [if_neg hA]
    simp only [hA, false_and, if_false, Finset.sum_const_zero]

/-- The reference's last stage is the layer's output function of the five inputs, when both index vectors hold node numbers. -/
theorem value (v : S10000x1024.Idx → EReal) (W : S1024x512.Idx → EReal) (src dst : S160000.Idx → BitVec 32)
    (w : S160000.Idx → EReal) (hs : ∀ e, (src e).toNat < 10000) (hd : ∀ e, (dst e).toNat < 10000) :
    val_main_v14 (F := Ideal) v W src dst w = GraphConv.G v W src dst w := by
  funext i
  obtain ⟨d, j, rfl⟩ : ∃ (d : Fin 10000) (j : Fin 512), i = ix2 d j := ⟨i 0, i 1, eq_ix2 i⟩
  rw [val_main_v14_apply, Ideal.maximumf_def, val_main_call0_v0_apply, val_main_call0_cst_apply, Ideal.ofBits_def,
    Ideal.ofBits_zero_f32, v13_read v W src dst w hs hd d j]
  rfl

end Cert.ReferenceIdeal.RefRead

end
-- ==== Proof.lean ====
/-
  A graph-convolution layer: out = relu (A · (v · W)), A the weighted adjacency of a 160000-edge list over 10000
  nodes (edge e carries weight w e from node src e to node dst e).

  The kernel pads v to 10240 rows, multiplies by W in one call, builds A densely on the host by adding each edge's
  weight at (dst e, src e) of a zero [10240 × 10240] matrix (both indices clipped to [0, 9999] first), multiplies A
  by the support in a second call with the relu fused, and keeps the first 10000 rows. The reference multiplies
  v by W, gathers one support row per edge, scales it by the edge's weight, and segment-sums the scaled rows by
  destination, then relu.

  Under the precondition — the three float inputs finite, both index vectors node numbers in [0, 10000) — both
  programs end with, at node d and feature j,  relu (∑ over the edges e into d of  w e · (v · W) (src e, j)).
  The kernel's arrangement (sum over source rows of summed weights times the row) meets the reference's (sum over
  edges) by distributing a real factor over a finite sum of reals; on the extended reals that law needs the
  finiteness the precondition gives. Outside the index range the two programs differ (the kernel clips an index,
  the reference wraps a negative one, clamps a gather start and drops a scatter update), which is why the range is
  part of the precondition.

  The three frames are the generated ones (the reference's is its generated run with the result dropped); the
  idealization rewrote nothing, so `preserves` is trivial.
-/
import proofs.«403788_j20452634263994_3_alg».proof.Defs
import proofs.«403788_j20452634263994_3_alg».proof.Proof.Gen.Kernel
import proofs.«403788_j20452634263994_3_alg».proof.Proof.Gen.Kernel.Skeleton
import proofs.«403788_j20452634263994_3_alg».proof.Proof.Gen.Kernel.Launch
import proofs.«403788_j20452634263994_3_alg».proof.Proof.Gen.Kernel.Points
import proofs.«403788_j20452634263994_3_alg».proof.Proof.Gen.Kernel.Frame
import proofs.«403788_j20452634263994_3_alg».proof.Proof.Gen.KernelIdeal
import proofs.«403788_j20452634263994_3_alg».proof.Proof.Gen.KernelIdeal.Skeleton
import proofs.«403788_j20452634263994_3_alg».proof.Proof.Gen.KernelIdeal.Launch
import proofs.«403788_j20452634263994_3_alg».proof.Proof.Gen.KernelIdeal.Points
import proofs.«403788_j20452634263994_3_alg».proof.Proof.Gen.KernelIdeal.Frame
import proofs.«403788_j20452634263994_3_alg».proof.Proof.Gen.ReferenceIdeal
import proofs.«403788_j20452634263994_3_alg».proof.Proof.Gen.Pre_finite_inputs
import proofs.«403788_j20452634263994_3_alg».proof.Proof.Gen.ReferenceIdeal.Run
import proofs.«403788_j20452634263994_3_alg».proof.Proof.Gen.ReferenceIdeal.Read
import proofs.«403788_j20452634263994_3_alg».proof.Proof.KRun
import proofs.«403788_j20452634263994_3_alg».proof.Proof.KValue
import proofs.«403788_j20452634263994_3_alg».proof.Proof.RefRead
import proofs.«403788_j20452634263994_3_alg».proof.Proof.PreFacts
import Idealize.ShloMosaic.Adequacy
import Idealize.ShloMosaic.Init

noncomputable section

namespace Cert.Proof

open Idealize.ShloMosaic Idealize.SL.Sem

/-- The reference runs and keeps its arguments: its generated run, the result dropped. -/
theorem frame_reference : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both idealized programs end with the layer's output function of the shared inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have H := fun c => Cert.PreFacts.of_pre _ _ _ _ _ (hpre c)
  refine ⟨fun c => GraphConv.G (Cert.KernelIdeal.KHost.av m c) (Cert.KernelIdeal.KHost.aW m c)
    (Cert.KernelIdeal.KHost.asrc m c) (Cert.KernelIdeal.KHost.adst m c) (Cert.KernelIdeal.KHost.aw m c), ?_, ?_⟩
  · exact (θ_run Cert.KernelIdeal.defs _ _).mono
      (fun r h c => ⟨(h c).1.trans (Cert.KernelIdeal.KValue.value m ρ c (H c)), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v14_eq _ _ _ _ _).trans ?_
    rw [(hagree c).1, (hagree c).2.1, (hagree c).2.2.1, (hagree c).2.2.2.1, (hagree c).2.2.2.2]
    exact Cert.ReferenceIdeal.RefRead.value _ _ _ _ _ (H c).src_node (H c).dst_node

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
